-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x13 : Shape := ⟨2, ![65536, 13]⟩
abbrev S2048x13 : Shape := ⟨2, ![2048, 13]⟩
abbrev S300x13 : Shape := ⟨2, ![300, 13]⟩
abbrev S300 : Shape := ⟨1, ![300]⟩
abbrev S600x300 : Shape := ⟨2, ![600, 300]⟩
abbrev S600 : Shape := ⟨1, ![600]⟩
abbrev S100x600 : Shape := ⟨2, ![100, 600]⟩
abbrev S100 : Shape := ⟨1, ![100]⟩
abbrev S13x100 : Shape := ⟨2, ![13, 100]⟩
abbrev S13 : Shape := ⟨1, ![13]⟩
abbrev S_ : Shape := ⟨0, ![]⟩

class Facts : Prop where
  bcast_S_S65536x13 : S_.BroadcastsInDim S65536x13 (![] : Fin 0 → Fin S65536x13.rank)
  reducesTo_S65536x13_S_d0_1 : S65536x13.ReducesTo [0, 1] S_
  h_S_ : 0 < S_.numel
  bcast_S_S2048x13 : S_.BroadcastsInDim S2048x13 (![] : Fin 0 → Fin S2048x13.rank)
  reducesTo_S2048x13_S_d0_1 : S2048x13.ReducesTo [0, 1] S_
  bcast_S_S300x13 : S_.BroadcastsInDim S300x13 (![] : Fin 0 → Fin S300x13.rank)
  reducesTo_S300x13_S_d0_1 : S300x13.ReducesTo [0, 1] S_
  bcast_S_S300 : S_.BroadcastsInDim S300 (![] : Fin 0 → Fin S300.rank)
  reducesTo_S300_S_d0 : S300.ReducesTo [0] S_
  bcast_S_S600x300 : S_.BroadcastsInDim S600x300 (![] : Fin 0 → Fin S600x300.rank)
  reducesTo_S600x300_S_d0_1 : S600x300.ReducesTo [0, 1] S_
  bcast_S_S600 : S_.BroadcastsInDim S600 (![] : Fin 0 → Fin S600.rank)
  reducesTo_S600_S_d0 : S600.ReducesTo [0] S_
  bcast_S_S100x600 : S_.BroadcastsInDim S100x600 (![] : Fin 0 → Fin S100x600.rank)
  reducesTo_S100x600_S_d0_1 : S100x600.ReducesTo [0, 1] S_
  bcast_S_S100 : S_.BroadcastsInDim S100 (![] : Fin 0 → Fin S100.rank)
  reducesTo_S100_S_d0 : S100.ReducesTo [0] S_
  bcast_S_S13x100 : S_.BroadcastsInDim S13x100 (![] : Fin 0 → Fin S13x100.rank)
  reducesTo_S13x100_S_d0_1 : S13x100.ReducesTo [0, 1] S_
  bcast_S_S13 : S_.BroadcastsInDim S13 (![] : Fin 0 → Fin S13.rank)
  reducesTo_S13_S_d0 : S13.ReducesTo [0] S_

variable [Facts]

def fn_part2 {F : FTy → Type} [FloatOps F] (main_arg7 : FVec F S100 .f32) (main_arg8 : FVec F S13x100 .f32) (main_arg9 : FVec F S13 .f32) (main_v33 : IVec S_ 1) : IVec S_ 1 :=
  let main_v34 : FVec F S100 .f32 := Host.absf main_arg7
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S13x100 .f32 := Host.absf main_arg8
  let main_cst_14 : FVec F S_ .f32 := constant S_ .f32 0x7F800000#32
  let main_v40 : FVec F S13x100 .f32 := broadcastInDim S13x100 ![] bcast_S_S13x100 main_cst_14
  let main_v41 : IVec S13x100 1 := cmpf .olt main_v39 main_v40
  let main_c_15 : IVec S_ 1 := constantI S_ 1 1#1
  let main_v42 : IVec S_ 1 := (fun x v => Host.reduce IntOp.andi x v reducesTo_S13x100_S_d0_1 h_S_) main_v41 main_c_15
  let main_v43 : IVec S_ 1 := andi main_v38 main_v42
  let main_v44 : FVec F S13 .f32 := Host.absf main_arg9
  let main_cst_16 : FVec F S_ .f32 := constant S_ .f32 0x7F800000#32
  let main_v45 : FVec F S13 .f32 := broadcastInDim S13 ![] bcast_S_S13 main_cst_16
  let main_v46 : IVec S13 1 := cmpf .olt main_v44 main_v45
  let main_c_17 : IVec S_ 1 := constantI S_ 1 1#1
  let main_v47 : IVec S_ 1 := (fun x v => Host.reduce IntOp.andi x v reducesTo_S13_S_d0 h_S_) main_v46 main_c_17
  let main_v48 : IVec S_ 1 := andi main_v43 main_v47
  main_v48

def fn_part1 {F : FTy → Type} [FloatOps F] (main_arg4 : FVec F S600x300 .f32) (main_arg5 : FVec F S600 .f32) (main_arg6 : FVec F S100x600 .f32) (main_arg7 : FVec F S100 .f32) (main_arg8 : FVec F S13x100 .f32) (main_arg9 : FVec F S13 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S600x300 .f32 := Host.absf main_arg4
  let main_cst_6 : FVec F S_ .f32 := constant S_ .f32 0x7F800000#32
  let main_v20 : FVec F S600x300 .f32 := broadcastInDim S600x300 ![] bcast_S_S600x300 main_cst_6
  let main_v21 : IVec S600x300 1 := cmpf .olt main_v19 main_v20
  let main_c_7 : IVec S_ 1 := constantI S_ 1 1#1
  let main_v22 : IVec S_ 1 := (fun x v => Host.reduce IntOp.andi x v reducesTo_S600x300_S_d0_1 h_S_) main_v21 main_c_7
  let main_v23 : IVec S_ 1 := andi main_v18 main_v22
  let main_v24 : FVec F S600 .f32 := Host.absf main_arg5
  let main_cst_8 : FVec F S_ .f32 := constant S_ .f32 0x7F800000#32
  let main_v25 : FVec F S600 .f32 := broadcastInDim S600 ![] bcast_S_S600 main_cst_8
  let main_v26 : IVec S600 1 := cmpf .olt main_v24 main_v25
  let main_c_9 : IVec S_ 1 := constantI S_ 1 1#1
  let main_v27 : IVec S_ 1 := (fun x v => Host.reduce IntOp.andi x v reducesTo_S600_S_d0 h_S_) main_v26 main_c_9
  let main_v28 : IVec S_ 1 := andi main_v23 main_v27
  let main_v29 : FVec F S100x600 .f32 := Host.absf main_arg6
  let main_cst_10 : FVec F S_ .f32 := constant S_ .f32 0x7F800000#32
  let main_v30 : FVec F S100x600 .f32 := broadcastInDim S100x600 ![] bcast_S_S100x600 main_cst_10
  let main_v31 : IVec S100x600 1 := cmpf .olt main_v29 main_v30
  let main_c_11 : IVec S_ 1 := constantI S_ 1 1#1
  let main_v32 : IVec S_ 1 := (fun x v => Host.reduce IntOp.andi x v reducesTo_S100x600_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x13 .f32) (main_arg1 : FVec F S2048x13 .f32) (main_arg2 : FVec F S300x13 .f32) (main_arg3 : FVec F S300 .f32) (main_arg4 : FVec F S600x300 .f32) (main_arg5 : FVec F S600 .f32) (main_arg6 : FVec F S100x600 .f32) (main_arg7 : FVec F S100 .f32) (main_arg8 : FVec F S13x100 .f32) (main_arg9 : FVec F S13 .f32) : IVec S_ 1 :=
  let main_v0 : FVec F S65536x13 .f32 := Host.absf main_arg0
  let main_cst : FVec F S_ .f32 := constant S_ .f32 0x7F800000#32
  let main_v1 : FVec F S65536x13 .f32 := broadcastInDim S65536x13 ![] bcast_S_S65536x13 main_cst
  let main_v2 : IVec S65536x13 1 := cmpf .olt main_v0 main_v1
  let main_c : IVec S_ 1 := constantI S_ 1 1#1
  let main_v3 : IVec S_ 1 := (fun x v => Host.reduce IntOp.andi x v reducesTo_S65536x13_S_d0_1 h_S_) main_v2 main_c
  let main_v4 : FVec F S2048x13 .f32 := Host.absf main_arg1
  let main_cst_0 : FVec F S_ .f32 := constant S_ .f32 0x7F800000#32
  let main_v5 : FVec F S2048x13 .f32 := broadcastInDim S2048x13 ![] bcast_S_S2048x13 main_cst_0
  let main_v6 : IVec S2048x13 1 := cmpf .olt main_v4 main_v5
  let main_c_1 : IVec S_ 1 := constantI S_ 1 1#1
  let main_v7 : IVec S_ 1 := (fun x v => Host.reduce IntOp.andi x v reducesTo_S2048x13_S_d0_1 h_S_) main_v6 main_c_1
  let main_v8 : IVec S_ 1 := andi main_v3 main_v7
  let main_v9 : FVec F S300x13 .f32 := Host.absf main_arg2
  let main_cst_2 : FVec F S_ .f32 := constant S_ .f32 0x7F800000#32
  let main_v10 : FVec F S300x13 .f32 := broadcastInDim S300x13 ![] bcast_S_S300x13 main_cst_2
  let main_v11 : IVec S300x13 1 := cmpf .olt main_v9 main_v10
  let main_c_3 : IVec S_ 1 := constantI S_ 1 1#1
  let main_v12 : IVec S_ 1 := (fun x v => Host.reduce IntOp.andi x v reducesTo_S300x13_S_d0_1 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_arg6 main_arg7 main_arg8 main_arg9 main_v13 main_v16
-- ==== Kernel.lean ====
abbrev S65536x13 : Shape := ⟨2, ![65536, 13]⟩
abbrev S2048x13 : Shape := ⟨2, ![2048, 13]⟩
abbrev S300x13 : Shape := ⟨2, ![300, 13]⟩
abbrev S300 : Shape := ⟨1, ![300]⟩
abbrev S600x300 : Shape := ⟨2, ![600, 300]⟩
abbrev S600 : Shape := ⟨1, ![600]⟩
abbrev S100x600 : Shape := ⟨2, ![100, 600]⟩
abbrev S100 : Shape := ⟨1, ![100]⟩
abbrev S13x100 : Shape := ⟨2, ![13, 100]⟩
abbrev S13 : Shape := ⟨1, ![13]⟩
abbrev S13x300 : Shape := ⟨2, ![13, 300]⟩
abbrev S300x600 : Shape := ⟨2, ![300, 600]⟩
abbrev S600x100 : Shape := ⟨2, ![600, 100]⟩
abbrev S100x13 : Shape := ⟨2, ![100, 13]⟩
abbrev S_ : Shape := ⟨0, ![]⟩
abbrev S2048 : Shape := ⟨1, ![2048]⟩
abbrev S2048x1 : Shape := ⟨2, ![2048, 1]⟩
abbrev S1024x13 : Shape := ⟨2, ![1024, 13]⟩
abbrev S1024 : Shape := ⟨1, ![1024]⟩
abbrev S1024x300 : Shape := ⟨2, ![1024, 300]⟩
abbrev S1x300 : Shape := ⟨2, ![1, 300]⟩
abbrev S1024x600 : Shape := ⟨2, ![1024, 600]⟩
abbrev S1x600 : Shape := ⟨2, ![1, 600]⟩
abbrev S1024x100 : Shape := ⟨2, ![1024, 100]⟩
abbrev S1x100 : Shape := ⟨2, ![1, 100]⟩
abbrev S1x13 : Shape := ⟨2, ![1, 13]⟩
abbrev S1024x1 : Shape := ⟨2, ![1024, 1]⟩
abbrev S1024x1024 : Shape := ⟨2, ![1024, 1024]⟩

abbrev nBuf : Space → Nat
  | .hbm => 30
  | .vmem => 14
  | .smem => 0
  | _ => 0

abbrev bufTy : (tb : Table) → Fin (tcTables nBuf tb) → BufTy
  | .hbm, ⟨0, _⟩ => ⟨S65536x13, .f32⟩
  | .hbm, ⟨1, _⟩ => ⟨S2048x13, .f32⟩
  | .hbm, ⟨2, _⟩ => ⟨S300x13, .f32⟩
  | .hbm, ⟨3, _⟩ => ⟨S300, .f32⟩
  | .hbm, ⟨4, _⟩ => ⟨S600x300, .f32⟩
  | .hbm, ⟨5, _⟩ => ⟨S600, .f32⟩
  | .hbm, ⟨6, _⟩ => ⟨S100x600, .f32⟩
  | .hbm, ⟨7, _⟩ => ⟨S100, .f32⟩
  | .hbm, ⟨8, _⟩ => ⟨S13x100, .f32⟩
  | .hbm, ⟨9, _⟩ => ⟨S13, .f32⟩
  | .hbm, ⟨10, _⟩ => ⟨S13x300, .f32⟩
  | .hbm, ⟨11, _⟩ => ⟨S13x300, .bf16⟩
  | .hbm, ⟨12, _⟩ => ⟨S300x600, .f32⟩
  | .hbm, ⟨13, _⟩ => ⟨S300x600, .bf16⟩
  | .hbm, ⟨14, _⟩ => ⟨S600x100, .f32⟩
  | .hbm, ⟨15, _⟩ => ⟨S600x100, .bf16⟩
  | .hbm, ⟨16, _⟩ => ⟨S100x13, .f32⟩
  | .hbm, ⟨17, _⟩ => ⟨S100x13, .bf16⟩
  | .hbm, ⟨18, _⟩ => ⟨S2048x13, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x13, .f32⟩
  | .hbm, ⟨27, _⟩ => ⟨S2048x13, .f32⟩
  | .hbm, ⟨28, _⟩ => ⟨S2048x13, .bf16⟩
  | .hbm, ⟨29, _⟩ => ⟨S2048, .f32⟩
  | .local _ .vmem, ⟨0, _⟩ => ⟨S1024x13, .bf16⟩
  | .local _ .vmem, ⟨1, _⟩ => ⟨S1024x13, .bf16⟩
  | .local _ .vmem, ⟨2, _⟩ => ⟨S1024x13, .f32⟩
  | .local _ .vmem, ⟨3, _⟩ => ⟨S1024x13, .f32⟩
  | .local _ .vmem, ⟨4, _⟩ => ⟨S13x300, .bf16⟩
  | .local _ .vmem, ⟨5, _⟩ => ⟨S300, .f32⟩
  | .local _ .vmem, ⟨6, _⟩ => ⟨S300x600, .bf16⟩
  | .local _ .vmem, ⟨7, _⟩ => ⟨S600, .f32⟩
  | .local _ .vmem, ⟨8, _⟩ => ⟨S600x100, .bf16⟩
  | .local _ .vmem, ⟨9, _⟩ => ⟨S100, .f32⟩
  | .local _ .vmem, ⟨10, _⟩ => ⟨S100x13, .bf16⟩
  | .local _ .vmem, ⟨11, _⟩ => ⟨S13, .f32⟩
  | .local _ .vmem, ⟨12, _⟩ => ⟨S1024, .f32⟩
  | .local _ .vmem, ⟨13, _⟩ => ⟨S1024, .f32⟩
  | _, _ => ⟨S65536x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x13 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S13x300 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S300x600 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S600 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S600x100 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S100x13 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S13 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  transposes_S300x13_S13x300_1_0 : S300x13.Transposes [1, 0] S13x300
  bitsLt_bf16_f32 : FTy.bits .bf16 < FTy.bits .f32
  transposes_S600x300_S300x600_1_0 : S600x300.Transposes [1, 0] S300x600
  transposes_S100x600_S600x100_1_0 : S100x600.Transposes [1, 0] S600x100
  transposes_S13x100_S100x13_1_0 : S13x100.Transposes [1, 0] S100x13
  reducesTo_S2048x13_S2048_d1 : S2048x13.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x13_0_1 : S2048x1.BroadcastsInDim S2048x13 (![0, 1] : Fin 2 → Fin S2048x13.rank)
  inb_S1024x13_S1024x13_0_0 : ∀ a, (![0, 0] : Fin 2 → Nat) a + S1024x13.size a ≤ S1024x13.size a
  h_S1024x13 : 0 < S1024x13.numel
  inb_S13x300_S13x300_0_0 : ∀ a, (![0, 0] : Fin 2 → Nat) a + S13x300.size a ≤ S13x300.size a
  h_S13x300 : 0 < S13x300.numel
  shapeCasts_S13x300_S13x300 : S13x300.ShapeCasts S13x300
  inb_S300_S300_0 : ∀ a, (![0] : Fin 1 → Nat) a + S300.size a ≤ S300.size a
  h_S300 : 0 < S300.numel
  shapeCasts_S300_S1x300 : S300.ShapeCasts S1x300
  broadcasts_S1x300_S1024x300 : S1x300.Broadcasts S1024x300
  inb_S300x600_S300x600_0_0 : ∀ a, (![0, 0] : Fin 2 → Nat) a + S300x600.size a ≤ S300x600.size a
  h_S300x600 : 0 < S300x600.numel
  shapeCasts_S300x600_S300x600 : S300x600.ShapeCasts S300x600
  inb_S600_S600_0 : ∀ a, (![0] : Fin 1 → Nat) a + S600.size a ≤ S600.size a
  h_S600 : 0 < S600.numel
  shapeCasts_S600_S1x600 : S600.ShapeCasts S1x600
  broadcasts_S1x600_S1024x600 : S1x600.Broadcasts S1024x600
  inb_S600x100_S600x100_0_0 : ∀ a, (![0, 0] : Fin 2 → Nat) a + S600x100.size a ≤ S600x100.size a
  h_S600x100 : 0 < S600x100.numel
  shapeCasts_S600x100_S600x100 : S600x100.ShapeCasts S600x100
  inb_S100_S100_0 : ∀ a, (![0] : Fin 1 → Nat) a + S100.size a ≤ S100.size a
  h_S100 : 0 < S100.numel
  shapeCasts_S100_S1x100 : S100.ShapeCasts S1x100
  broadcasts_S1x100_S1024x100 : S1x100.Broadcasts S1024x100
  inb_S100x13_S100x13_0_0 : ∀ a, (![0, 0] : Fin 2 → Nat) a + S100x13.size a ≤ S100x13.size a
  h_S100x13 : 0 < S100x13.numel
  shapeCasts_S100x13_S100x13 : S100x13.ShapeCasts S100x13
  inb_S13_S13_0 : ∀ a, (![0] : Fin 1 → Nat) a + S13.size a ≤ S13.size a
  h_S13 : 0 < S13.numel
  shapeCasts_S13_S1x13 : S13.ShapeCasts S1x13
  broadcasts_S1x13_S1024x13 : S1x13.Broadcasts S1024x13
  reduces_S1024x13_S1024 : S1024x13.Reduces [1] S1024
  shapeCasts_S1024_S1024x1 : S1024.ShapeCasts S1024x1
  broadcasts_S1024x1_S1024x13 : S1024x1.Broadcasts S1024x13
  shapeCasts_S1024x13_S1024x13 : S1024x13.ShapeCasts S1024x13
  reduces_S1024x1024_S1024 : S1024x1024.Reduces [1] S1024
  inb_S1024_S1024_0 : ∀ a, (![0] : Fin 1 → Nat) a + S1024.size a ≤ S1024.size a
  h_S1024 : 0 < S1024.numel
  shapeCasts_S1024_S1024 : S1024.ShapeCasts S1024
  dot_S1024x13_S13x300_S1024x300_1_0_0_1_n_n_wf : DotDims.WF S1024x13 S13x300 S1024x300 [1] [0] [0] [1] [] []
  dot_S1024x300_S300x600_S1024x600_1_0_0_1_n_n_wf : DotDims.WF S1024x300 S300x600 S1024x600 [1] [0] [0] [1] [] []
  dot_S1024x600_S600x100_S1024x100_1_0_0_1_n_n_wf : DotDims.WF S1024x600 S600x100 S1024x100 [1] [0] [0] [1] [] []
  dot_S1024x100_S100x13_S1024x13_1_0_0_1_n_n_wf : DotDims.WF S1024x100 S100x13 S1024x13 [1] [0] [0] [1] [] []
  dot_S1024x13_S1024x13_S1024x1024_1_1_0_0_n_n_wf : DotDims.WF S1024x13 S1024x13 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x13.size a ≤ S2048x13.size a
  hwx0_0 : ∀ i : grid0.Coords, EltTy.bits .bf16 = 32 ∨ (Rect.block (s := S2048x13) S1024x13.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x13.size a ≤ S65536x13.size a
  hwx0_1 : ∀ i : grid0.Coords, EltTy.bits .f32 = 32 ∨ (Rect.block (s := S65536x13) S1024x13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x300.size a ≤ S13x300.size a
  hwx0_2 : ∀ i : grid0.Coords, EltTy.bits .bf16 = 32 ∨ (Rect.block (s := S13x300) S13x300.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300.size a ≤ S300.size a
  hwx0_3 : ∀ i : grid0.Coords, EltTy.bits .f32 = 32 ∨ (Rect.block (s := S300) S300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300x600.size a ≤ S300x600.size a
  hwx0_4 : ∀ i : grid0.Coords, EltTy.bits .bf16 = 32 ∨ (Rect.block (s := S300x600) S300x600.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S600.size a ≤ S600.size a
  hwx0_5 : ∀ i : grid0.Coords, EltTy.bits .f32 = 32 ∨ (Rect.block (s := S600) S600.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S600x100.size a ≤ S600x100.size a
  hwx0_6 : ∀ i : grid0.Coords, EltTy.bits .bf16 = 32 ∨ (Rect.block (s := S600x100) S600x100.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100.size a ≤ S100.size a
  hwx0_7 : ∀ i : grid0.Coords, EltTy.bits .f32 = 32 ∨ (Rect.block (s := S100) S100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S100x13.size a ≤ S100x13.size a
  hwx0_8 : ∀ i : grid0.Coords, EltTy.bits .bf16 = 32 ∨ (Rect.block (s := S100x13) S100x13.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S13.size a ≤ S13.size a
  hwx0_9 : ∀ i : grid0.Coords, EltTy.bits .f32 = 32 ∨ (Rect.block (s := S13) S13.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S2048.size a
  hwx0_10 : ∀ i : grid0.Coords, EltTy.bits .f32 = 32 ∨ (Rect.block (s := S2048) S1024.size (cc0_transform_10 i) (hinb0_10 i)).WholeWords (EltTy.packing .f32)

variable [Facts₀]

def dot_S1024x13_S13x300_S1024x300_1_0_0_1_n_n : DotDims S1024x13 S13x300 S1024x300 where
  lhsContracting := [1]
  rhsContracting := [0]
  lhsNonContracting := [0]
  rhsNonContracting := [1]
  lhsBatch := []
  rhsBatch := []
  wf := dot_S1024x13_S13x300_S1024x300_1_0_0_1_n_n_wf
def dot_S1024x300_S300x600_S1024x600_1_0_0_1_n_n : DotDims S1024x300 S300x600 S1024x600 where
  lhsContracting := [1]
  rhsContracting := [0]
  lhsNonContracting := [0]
  rhsNonContracting := [1]
  lhsBatch := []
  rhsBatch := []
  wf := dot_S1024x300_S300x600_S1024x600_1_0_0_1_n_n_wf
def dot_S1024x600_S600x100_S1024x100_1_0_0_1_n_n : DotDims S1024x600 S600x100 S1024x100 where
  lhsContracting := [1]
  rhsContracting := [0]
  lhsNonContracting := [0]
  rhsNonContracting := [1]
  lhsBatch := []
  rhsBatch := []
  wf := dot_S1024x600_S600x100_S1024x100_1_0_0_1_n_n_wf
def dot_S1024x100_S100x13_S1024x13_1_0_0_1_n_n : DotDims S1024x100 S100x13 S1024x13 where
  lhsContracting := [1]
  rhsContracting := [0]
  lhsNonContracting := [0]
  rhsNonContracting := [1]
  lhsBatch := []
  rhsBatch := []
  wf := dot_S1024x100_S100x13_S1024x13_1_0_0_1_n_n_wf
def dot_S1024x13_S1024x13_S1024x1024_1_1_0_0_n_n : DotDims S1024x13 S1024x13 S1024x1024 where
  lhsContracting := [1]
  rhsContracting := [1]
  lhsNonContracting := [0]
  rhsNonContracting := [0]
  lhsBatch := []
  rhsBatch := []
  wf := dot_S1024x13_S1024x13_S1024x1024_1_1_0_0_n_n_wf

abbrev win0_0 : Pipeline.Window sig grid0 :=
  Pipeline.Window.ofSpec (Memref.whole main_v13) S1024x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S13x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S300x600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S600.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S600x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S100x13.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S13.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x13 : Shape := ⟨2, ![65536, 13]⟩
abbrev S2048x13 : Shape := ⟨2, ![2048, 13]⟩
abbrev S300x13 : Shape := ⟨2, ![300, 13]⟩
abbrev S300 : Shape := ⟨1, ![300]⟩
abbrev S600x300 : Shape := ⟨2, ![600, 300]⟩
abbrev S600 : Shape := ⟨1, ![600]⟩
abbrev S100x600 : Shape := ⟨2, ![100, 600]⟩
abbrev S100 : Shape := ⟨1, ![100]⟩
abbrev S13x100 : Shape := ⟨2, ![13, 100]⟩
abbrev S13 : Shape := ⟨1, ![13]⟩
abbrev S13x300 : Shape := ⟨2, ![13, 300]⟩
abbrev S65536x300 : Shape := ⟨2, ![65536, 300]⟩
abbrev S1x300 : Shape := ⟨2, ![1, 300]⟩
abbrev S_ : Shape := ⟨0, ![]⟩
abbrev S300x600 : Shape := ⟨2, ![300, 600]⟩
abbrev S65536x600 : Shape := ⟨2, ![65536, 600]⟩
abbrev S1x600 : Shape := ⟨2, ![1, 600]⟩
abbrev S600x100 : Shape := ⟨2, ![600, 100]⟩
abbrev S65536x100 : Shape := ⟨2, ![65536, 100]⟩
abbrev S1x100 : Shape := ⟨2, ![1, 100]⟩
abbrev S100x13 : Shape := ⟨2, ![100, 13]⟩
abbrev S1x13 : Shape := ⟨2, ![1, 13]⟩
abbrev S65536 : Shape := ⟨1, ![65536]⟩
abbrev S65536x1 : Shape := ⟨2, ![65536, 1]⟩
abbrev S2048 : Shape := ⟨1, ![2048]⟩
abbrev S2048x1 : Shape := ⟨2, ![2048, 1]⟩
abbrev S13x65536 : Shape := ⟨2, ![13, 65536]⟩
abbrev S2048x65536 : Shape := ⟨2, ![2048, 65536]⟩

abbrev nBuf : Space → Nat
  | .hbm => 79
  | .vmem => 0
  | .smem => 0
  | _ => 0

abbrev bufTy : (tb : Table) → Fin (tcTables nBuf tb) → BufTy
  | .hbm, ⟨0, _⟩ => ⟨S65536x13, .f32⟩
  | .hbm, ⟨1, _⟩ => ⟨S2048x13, .f32⟩
  | .hbm, ⟨2, _⟩ => ⟨S300x13, .f32⟩
  | .hbm, ⟨3, _⟩ => ⟨S300, .f32⟩
  | .hbm, ⟨4, _⟩ => ⟨S600x300, .f32⟩
  | .hbm, ⟨5, _⟩ => ⟨S600, .f32⟩
  | .hbm, ⟨6, _⟩ => ⟨S100x600, .f32⟩
  | .hbm, ⟨7, _⟩ => ⟨S100, .f32⟩
  | .hbm, ⟨8, _⟩ => ⟨S13x100, .f32⟩
  | .hbm, ⟨9, _⟩ => ⟨S13, .f32⟩
  | .hbm, ⟨10, _⟩ => ⟨S13x300, .f32⟩
  | .hbm, ⟨11, _⟩ => ⟨S65536x300, .f32⟩
  | .hbm, ⟨12, _⟩ => ⟨S1x300, .f32⟩
  | .hbm, ⟨13, _⟩ => ⟨S65536x300, .f32⟩
  | .hbm, ⟨14, _⟩ => ⟨S65536x300, .f32⟩
  | .hbm, ⟨15, _⟩ => ⟨S_, .f32⟩
  | .hbm, ⟨16, _⟩ => ⟨S65536x300, .f32⟩
  | .hbm, ⟨17, _⟩ => ⟨S65536x300, .f32⟩
  | .hbm, ⟨18, _⟩ => ⟨S300x600, .f32⟩
  | .hbm, ⟨19, _⟩ => ⟨S65536x600, .f32⟩
  | .hbm, ⟨20, _⟩ => ⟨S1x600, .f32⟩
  | .hbm, ⟨21, _⟩ => ⟨S65536x600, .f32⟩
  | .hbm, ⟨22, _⟩ => ⟨S65536x600, .f32⟩
  | .hbm, ⟨23, _⟩ => ⟨S_, .f32⟩
  | .hbm, ⟨24, _⟩ => ⟨S_, .f32⟩
  | .hbm, ⟨25, _⟩ => ⟨S65536x600, .f32⟩
  | .hbm, ⟨26, _⟩ => ⟨S65536x600, .i1⟩
  | .hbm, ⟨27, _⟩ => ⟨S_, .f32⟩
  | .hbm, ⟨28, _⟩ => ⟨S65536x600, .f32⟩
  | .hbm, ⟨29, _⟩ => ⟨S65536x600, .f32⟩
  | .hbm, ⟨30, _⟩ => ⟨S65536x600, .f32⟩
  | .hbm, ⟨31, _⟩ => ⟨S600x100, .f32⟩
  | .hbm, ⟨32, _⟩ => ⟨S65536x100, .f32⟩
  | .hbm, ⟨33, _⟩ => ⟨S1x100, .f32⟩
  | .hbm, ⟨34, _⟩ => ⟨S65536x100, .f32⟩
  | .hbm, ⟨35, _⟩ => ⟨S65536x100, .f32⟩
  | .hbm, ⟨36, _⟩ => ⟨S_, .f32⟩
  | .hbm, ⟨37, _⟩ => ⟨S65536x100, .f32⟩
  | .hbm, ⟨38, _⟩ => ⟨S65536x100, .f32⟩
  | .hbm, ⟨39, _⟩ => ⟨S100x13, .f32⟩
  | .hbm, ⟨40, _⟩ => ⟨S65536x13, .f32⟩
  | .hbm, ⟨41, _⟩ => ⟨S1x13, .f32⟩
  | .hbm, ⟨42, _⟩ => ⟨S65536x13, .f32⟩
  | .hbm, ⟨43, _⟩ => ⟨S65536x13, .f32⟩
  | .hbm, ⟨44, _⟩ => ⟨S_, .f32⟩
  | .hbm, ⟨45, _⟩ => ⟨S_, .f32⟩
  | .hbm, ⟨46, _⟩ => ⟨S65536x13, .f32⟩
  | .hbm, ⟨47, _⟩ => ⟨S65536x13, .i1⟩
  | .hbm, ⟨48, _⟩ => ⟨S_, .f32⟩
  | .hbm, ⟨49, _⟩ => ⟨S65536x13, .f32⟩
  | .hbm, ⟨50, _⟩ => ⟨S65536x13, .f32⟩
  | .hbm, ⟨51, _⟩ => ⟨S65536x13, .f32⟩
  | .hbm, ⟨52, _⟩ => ⟨S65536x13, .f32⟩
  | .hbm, ⟨53, _⟩ => ⟨S_, .f32⟩
  | .hbm, ⟨54, _⟩ => ⟨S65536, .f32⟩
  | .hbm, ⟨55, _⟩ => ⟨S65536x1, .f32⟩
  | .hbm, ⟨56, _⟩ => ⟨S65536x1, .f32⟩
  | .hbm, ⟨57, _⟩ => ⟨S_, .f32⟩
  | .hbm, ⟨58, _⟩ => ⟨S65536x1, .f32⟩
  | .hbm, ⟨59, _⟩ => ⟨S65536x1, .f32⟩
  | .hbm, ⟨60, _⟩ => ⟨S65536x13, .f32⟩
  | .hbm, ⟨61, _⟩ => ⟨S65536x13, .f32⟩
  | .hbm, ⟨62, _⟩ => ⟨S2048x13, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S2048x13, .f32⟩
  | .hbm, ⟨71, _⟩ => ⟨S2048x13, .f32⟩
  | .hbm, ⟨72, _⟩ => ⟨S13x65536, .f32⟩
  | .hbm, ⟨73, _⟩ => ⟨S2048x65536, .f32⟩
  | .hbm, ⟨74, _⟩ => ⟨S_, .f32⟩
  | .hbm, ⟨75, _⟩ => ⟨S2048x65536, .f32⟩
  | .hbm, ⟨76, _⟩ => ⟨S2048x65536, .f32⟩
  | .hbm, ⟨77, _⟩ => ⟨S_, .f32⟩
  | .hbm, ⟨78, _⟩ => ⟨S2048, .f32⟩
  | _, _ => ⟨S65536x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_call1_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call2_cst : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_0 : Ref sig .tc := ⟨.hbm, 44, rfl⟩
abbrev main_call3_cst : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v23 : Ref sig .tc := ⟨.hbm, 51, rfl⟩
abbrev main_call4_v0 : Ref sig .tc := ⟨.hbm, 52, rfl⟩
abbrev main_call4_cst : Ref sig .tc := ⟨.hbm, 53, rfl⟩
abbrev main_call4_v1 : Ref sig .tc := ⟨.hbm, 54, rfl⟩
abbrev main_call4_v2 : Ref sig .tc := ⟨.hbm, 55, rfl⟩
abbrev main_v24 : Ref sig .tc := ⟨.hbm, 56, rfl⟩
abbrev main_cst_1 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_call5_v0 : Ref sig .tc := ⟨.hbm, 62, rfl⟩
abbrev main_call5_cst : Ref sig .tc := ⟨.hbm, 63, rfl⟩
abbrev main_call5_v1 : Ref sig .tc := ⟨.hbm, 64, rfl⟩
abbrev main_call5_v2 : Ref sig .tc := ⟨.hbm, 65, rfl⟩
abbrev main_v29 : Ref sig .tc := ⟨.hbm, 66, rfl⟩
abbrev main_cst_2 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_3 : Ref sig .tc := ⟨.hbm, 74, rfl⟩
abbrev main_v36 : Ref sig .tc := ⟨.hbm, 75, rfl⟩
abbrev main_v37 : Ref sig .tc := ⟨.hbm, 76, rfl⟩
abbrev main_cst_4 : Ref sig .tc := ⟨.hbm, 77, rfl⟩
abbrev main_v38 : Ref sig .tc := ⟨.hbm, 78, rfl⟩

abbrev nD : Nat := 1
abbrev τ : Topo := Topo.v7x

variable {F : FTy → Type} [FloatOps F]

class Facts₀ : Prop where
  transposes_S300x13_S13x300_1_0 : S300x13.Transposes [1, 0] S13x300
  bcast_S300_S1x300_1 : S300.BroadcastsInDim S1x300 (![1] : Fin 1 → Fin S1x300.rank)
  bcast_S1x300_S65536x300_0_1 : S1x300.BroadcastsInDim S65536x300 (![0, 1] : Fin 2 → Fin S65536x300.rank)
  bcast_S_S65536x300 : S_.BroadcastsInDim S65536x300 (![] : Fin 0 → Fin S65536x300.rank)
  transposes_S600x300_S300x600_1_0 : S600x300.Transposes [1, 0] S300x600
  bcast_S600_S1x600_1 : S600.BroadcastsInDim S1x600 (![1] : Fin 1 → Fin S1x600.rank)
  bcast_S1x600_S65536x600_0_1 : S1x600.BroadcastsInDim S65536x600 (![0, 1] : Fin 2 → Fin S65536x600.rank)
  bcast_S_S65536x600 : S_.BroadcastsInDim S65536x600 (![] : Fin 0 → Fin S65536x600.rank)
  transposes_S100x600_S600x100_1_0 : S100x600.Transposes [1, 0] S600x100
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  bcast_S_S65536x100 : S_.BroadcastsInDim S65536x100 (![] : Fin 0 → Fin S65536x100.rank)
  transposes_S13x100_S100x13_1_0 : S13x100.Transposes [1, 0] S100x13
  bcast_S13_S1x13_1 : S13.BroadcastsInDim S1x13 (![1] : Fin 1 → Fin S1x13.rank)
  bcast_S1x13_S65536x13_0_1 : S1x13.BroadcastsInDim S65536x13 (![0, 1] : Fin 2 → Fin S65536x13.rank)
  bcast_S_S65536x13 : S_.BroadcastsInDim S65536x13 (![] : Fin 0 → Fin S65536x13.rank)
  reducesTo_S65536x13_S65536_d1 : S65536x13.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x13_0_1 : S65536x1.BroadcastsInDim S65536x13 (![0, 1] : Fin 2 → Fin S65536x13.rank)
  reducesTo_S2048x13_S2048_d1 : S2048x13.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x13_0_1 : S2048x1.BroadcastsInDim S2048x13 (![0, 1] : Fin 2 → Fin S2048x13.rank)
  transposes_S65536x13_S13x65536_1_0 : S65536x13.Transposes [1, 0] S13x65536
  bcast_S_S2048x65536 : S_.BroadcastsInDim S2048x65536 (![] : Fin 0 → Fin S2048x65536.rank)
  reducesTo_S2048x65536_S2048_d1 : S2048x65536.ReducesTo [1] S2048
  dot_S65536x13_S13x300_S65536x300_1_0_0_1_n_n_wf : DotDims.WF S65536x13 S13x300 S65536x300 [1] [0] [0] [1] [] []
  dot_S65536x300_S300x600_S65536x600_1_0_0_1_n_n_wf : DotDims.WF S65536x300 S300x600 S65536x600 [1] [0] [0] [1] [] []
  dot_S65536x600_S600x100_S65536x100_1_0_0_1_n_n_wf : DotDims.WF S65536x600 S600x100 S65536x100 [1] [0] [0] [1] [] []
  dot_S65536x100_S100x13_S65536x13_1_0_0_1_n_n_wf : DotDims.WF S65536x100 S100x13 S65536x13 [1] [0] [0] [1] [] []
  dot_S2048x13_S13x65536_S2048x65536_1_0_0_1_n_n_wf : DotDims.WF S2048x13 S13x65536 S2048x65536 [1] [0] [0] [1] [] []

variable [Facts₀]

def dot_S65536x13_S13x300_S65536x300_1_0_0_1_n_n : DotDims S65536x13 S13x300 S65536x300 where
  lhsContracting := [1]
  rhsContracting := [0]
  lhsNonContracting := [0]
  rhsNonContracting := [1]
  lhsBatch := []
  rhsBatch := []
  wf := dot_S65536x13_S13x300_S65536x300_1_0_0_1_n_n_wf
def dot_S65536x300_S300x600_S65536x600_1_0_0_1_n_n : DotDims S65536x300 S300x600 S65536x600 where
  lhsContracting := [1]
  rhsContracting := [0]
  lhsNonContracting := [0]
  rhsNonContracting := [1]
  lhsBatch := []
  rhsBatch := []
  wf := dot_S65536x300_S300x600_S65536x600_1_0_0_1_n_n_wf
def dot_S65536x600_S600x100_S65536x100_1_0_0_1_n_n : DotDims S65536x600 S600x100 S65536x100 where
  lhsContracting := [1]
  rhsContracting := [0]
  lhsNonContracting := [0]
  rhsNonContracting := [1]
  lhsBatch := []
  rhsBatch := []
  wf := dot_S65536x600_S600x100_S65536x100_1_0_0_1_n_n_wf
def dot_S65536x100_S100x13_S65536x13_1_0_0_1_n_n : DotDims S65536x100 S100x13 S65536x13 where
  lhsContracting := [1]
  rhsContracting := [0]
  lhsNonContracting := [0]
  rhsNonContracting := [1]
  lhsBatch := []
  rhsBatch := []
  wf := dot_S65536x100_S100x13_S65536x13_1_0_0_1_n_n_wf
def dot_S2048x13_S13x65536_S2048x65536_1_0_0_1_n_n : DotDims S2048x13 S13x65536 S2048x65536 where
  lhsContracting := [1]
  rhsContracting := [0]
  lhsNonContracting := [0]
  rhsNonContracting := [1]
  lhsBatch := []
  rhsBatch := []
  wf := dot_S2048x13_S13x65536_S2048x65536_1_0_0_1_n_n_wf

class Facts : Prop extends Facts₀ where

variable [Facts]
-- ==== Proof.Spec.lean ====
/-
  The scalar functions both programs compute, row by row, on the extended reals.

  One memory row `x : Fin 13 → EReal` goes through four dense layers (weights given TRANSPOSED, `Wt (k, j)` the weight
  from input `k` to output `j`): an affine map and `max · 0`, an affine map and the leaky rectifier, again `max · 0`,
  again the leaky rectifier (`net`). A row is normalised by the larger of its Euclidean norm and a small positive
  constant (`unit`), and a value row is scored against a memory row by the scaled inner product of their normalised
  forms (`score`). Each output entry is the largest score of its value row over all memory rows.
-/
import Idealize.ShloMosaic.PureOps.Ideal.Laws
import Idealize.ShloMosaic.Lib.ValueIdx

noncomputable section

open scoped BigOperators

namespace Cert.Spec

open Idealize.ShloMosaic Idealize.ShloMosaic.ValueIdx

/-- The slope of the leaky rectifier below zero (the single-precision number nearest 0.01). -/
def slope : EReal := Ideal.ofBits .f32 0x3C23D70A#32
/-- The lower clamp of a norm (the single-precision number nearest 1e-8). -/
def eps : EReal := Ideal.ofBits .f32 0x322BCC77#32
/-- The scale of a score, 23. -/
def scale : EReal := Ideal.ofBits .f32 0x41B80000#32
/-- The finite value the running maximum starts from (the single-precision number nearest -1e30). -/
def floorInit : EReal := Ideal.ofBits .f32 0xF149F2CA#32

/-- `max z 0`. -/
def relu (z : EReal) : EReal := max z 0
/-- `z` above zero, `z · slope` otherwise. -/
def leaky (z : EReal) : EReal := if 0 < z then z else z * slope

/-- One output of an affine map of a row: `∑ k, x k · Wt (k, j) + b j`. -/
def affine {n p : Nat} (Wt : (⟨2, ![n, p]⟩ : Shape).Idx → EReal) (b : (⟨1, ![p]⟩ : Shape).Idx → EReal)
    (x : Fin n → EReal) (j : Fin p) : EReal :=
  (∑ k : Fin n, x k * Wt (ix2 k j)) + b (ix1 j)

/-- The first three layers applied to one row. -/
def net3 (Wt1 : (⟨2, ![13, 300]⟩ : Shape).Idx → EReal) (b1 : (⟨1, ![300]⟩ : Shape).Idx → EReal)
    (Wt2 : (⟨2, ![300, 600]⟩ : Shape).Idx → EReal) (b2 : (⟨1, ![600]⟩ : Shape).Idx → EReal)
    (Wt3 : (⟨2, ![600, 100]⟩ : Shape).Idx → EReal) (b3 : (⟨1, ![100]⟩ : Shape).Idx → EReal)
    (x : Fin 13 → EReal) : Fin 100 → EReal :=
  fun j3 => relu (affine Wt3 b3 (fun j2 => leaky (affine Wt2 b2 (fun j1 => relu (affine Wt1 b1 x j1)) j2)) j3)

/-- The four layers applied to one row. -/
def net (Wt1 : (⟨2, ![13, 300]⟩ : Shape).Idx → EReal) (b1 : (⟨1, ![300]⟩ : Shape).Idx → EReal)
    (Wt2 : (⟨2, ![300, 600]⟩ : Shape).Idx → EReal) (b2 : (⟨1, ![600]⟩ : Shape).Idx → EReal)
    (Wt3 : (⟨2, ![600, 100]⟩ : Shape).Idx → EReal) (b3 : (⟨1, ![100]⟩ : Shape).Idx → EReal)
    (Wt4 : (⟨2, ![100, 13]⟩ : Shape).Idx → EReal) (b4 : (⟨1, ![13]⟩ : Shape).Idx → EReal)
    (x : Fin 13 → EReal) : Fin 13 → EReal :=
  fun d => leaky (affine Wt4 b4 (net3 Wt1 b1 Wt2 b2 Wt3 b3 x) d)

/-- A row divided by the larger of its Euclidean norm and `eps`. -/
def unit {n : Nat} (x : Fin n → EReal) (d : Fin n) : EReal :=
  Ideal.div (x d) (max (Ideal.sqrt (∑ k : Fin n, x k * x k)) eps)

/-- The scaled inner product of two rows. -/
def score {n : Nat} (u w : Fin n → EReal) : EReal := (∑ d : Fin n, u d * w d) * scale

/-- A weight matrix read transposed: entry `(k, j)` of the result is entry `(j, k)` of the matrix. -/
def tr {n p : Nat} (W : (⟨2, ![p, n]⟩ : Shape).Idx → EReal) : (⟨2, ![n, p]⟩ : Shape).Idx → EReal :=
  fun i => W (ix2 (n0 := p) (n1 := n) (i 1) (i 0))

theorem tr_apply {n p : Nat} (W : (⟨2, ![p, n]⟩ : Shape).Idx → EReal) (k : Fin n) (j : Fin p) :
    tr W (ix2 k j) = W (ix2 j k) := rfl

/-- The result at value row `b`: the largest score of that row, normalised, against every memory row passed through
    the four layers and normalised; the maximum taken from minus infinity. -/
def best (a0 : (⟨2, ![65536, 13]⟩ : Shape).Idx → EReal) (a1 : (⟨2, ![2048, 13]⟩ : Shape).Idx → EReal)
    (a2 : (⟨2, ![300, 13]⟩ : Shape).Idx → EReal) (a3 : (⟨1, ![300]⟩ : Shape).Idx → EReal)
    (a4 : (⟨2, ![600, 300]⟩ : Shape).Idx → EReal) (a5 : (⟨1, ![600]⟩ : Shape).Idx → EReal)
    (a6 : (⟨2, ![100, 600]⟩ : Shape).Idx → EReal) (a7 : (⟨1, ![100]⟩ : Shape).Idx → EReal)
    (a8 : (⟨2, ![13, 100]⟩ : Shape).Idx → EReal) (a9 : (⟨1, ![13]⟩ : Shape).Idx → EReal) (b : Fin 2048) : EReal :=
  (Finset.univ : Finset (Fin 65536)).fold max ⊥ fun m =>
    score (unit fun d => a1 (ix2 b d)) (unit (net (tr a2) a3 (tr a4) a5 (tr a6) a7 (tr a8) a9 fun k => a0 (ix2 m k)))

end Cert.Spec

end
-- ==== Proof.KernelBlocks.lean ====
/-
  What the kernel's body reads at each grid point, in terms of the program's arguments.

  The grid has 2 × 64 points: point `t` reads value rows `1024·(t / 64) …` of the values normalised before the launch, memory
  rows `1024·(t % 64) …`, and the four weight matrices transposed before the launch and the four biases, whole.
-/
import proofs.«130421_j65335042507035_1_alg».proof.Proof.Gen.KernelIdeal.Value
import proofs.«130421_j65335042507035_1_alg».proof.Proof.Spec
import Idealize.ShloMosaic.Lib.StableHlo.Run
import Idealize.ShloMosaic.Lib.ValueLayout
import Idealize.ShloMosaic.PureOps.Ideal.Laws

noncomputable section

open scoped BigOperators

namespace Cert.KernelIdeal.KBlocks

open Cert.KernelIdeal Cert.KernelIdeal.Gen Cert.KernelIdeal.Value Idealize.ShloMosaic Idealize.ShloMosaic.TcCoe
  Idealize.SL.Sem Idealize.ShloMosaic.ValueIdx Cert.Spec

variable (m : (ℓ : Loc nD τ sig) → Buf (Elt Ideal) ℓ)

/-! ## Where each point's blocks lie -/

/-- The printed index maps over the grid: the value rows' block index is the run `t / 64`, the memory rows' is the place
    in the run `t % 64`, every weight and bias block is the whole array. -/
theorem idx_facts : ∀ t : Fin cfg0.N,
    win0_0.index t (0 : Fin 2) = t.val / 64 ∧ win0_0.index t (1 : Fin 2) = 0
    ∧ win0_1.index t (0 : Fin 2) = t.val % 64 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-- The point's blocks, each named at its literal type. -/
abbrev valBlk (c : Dev nD) (t : Fin cfg0.N) : Vec Ideal S1024x13 .bf16 := iblk m c 0 t
abbrev memBlk (c : Dev nD) (t : Fin cfg0.N) : Vec Ideal S1024x13 .f32 := iblk m c 1 t
abbrev w1Blk (c : Dev nD) (t : Fin cfg0.N) : Vec Ideal S13x300 .bf16 := iblk m c 2 t
abbrev b1Blk (c : Dev nD) (t : Fin cfg0.N) : Vec Ideal S300 .f32 := iblk m c 3 t
abbrev w2Blk (c : Dev nD) (t : Fin cfg0.N) : Vec Ideal S300x600 .bf16 := iblk m c 4 t
abbrev b2Blk (c : Dev nD) (t : Fin cfg0.N) : Vec Ideal S600 .f32 := iblk m c 5 t
abbrev w3Blk (c : Dev nD) (t : Fin cfg0.N) : Vec Ideal S600x100 .bf16 := iblk m c 6 t
abbrev b3Blk (c : Dev nD) (t : Fin cfg0.N) : Vec Ideal S100 .f32 := iblk m c 7 t
abbrev w4Blk (c : Dev nD) (t : Fin cfg0.N) : Vec Ideal S100x13 .bf16 := iblk m c 8 t
abbrev b4Blk (c : Dev nD) (t : Fin cfg0.N) : Vec Ideal S13 .f32 := iblk m c 9 t

/-- Row `ℓ` of the point's block of value rows is row `1024·(t / 64) + ℓ` of the normalised values. -/
theorem valBlk_apply (c : Dev nD) (t : Fin cfg0.N) (ℓ : Fin 1024) (d : Fin 13) (b : Fin 2048)
    (hb : b.val = 1024 * (t.val / 64) + ℓ.val) :
    valBlk m c t (ix2 ℓ d) = V m c main_v13 (ix2 b d) := by
  obtain ⟨e0, e1, -⟩ := idx_facts t
  show V m c main_v13 (((cfg0.win 0).blk t).view.emb (ix2 ℓ d)) = V m c main_v13 (ix2 b d)
  refine congrArg _ (funext fun a => Fin.ext ?_)
  match a with
  | ⟨0, _⟩ => show win0_0.index t (0 : Fin 2) * 1024 + 1 * ℓ.val = b.val; omega
  | ⟨1, _⟩ => show win0_0.index t (1 : Fin 2) * 13 + 1 * d.val = d.val; omega

/-- Row `r` of the point's block of memory rows is memory row `1024·(t % 64) + r`. -/
theorem memBlk_apply (c : Dev nD) (t : Fin cfg0.N) (r : Fin 1024) (k : Fin 13) (mm : Fin 65536)
    (hm : mm.val = 1024 * (t.val % 64) + r.val) :
    memBlk m c t (ix2 r k) = m ((c : Thread nD τ).loc main_arg0) (ix2 mm k) := by
  obtain ⟨-, -, e2, e3, -⟩ := idx_facts t
  rw [← V_main_arg0 m c]
  show V m c main_arg0 (((cfg0.win 1).blk t).view.emb (ix2 r k)) = V m c main_arg0 (ix2 mm k)
  refine congrArg _ (funext fun a => Fin.ext ?_)
  match a with
  | ⟨0, _⟩ => show win0_1.index t (0 : Fin 2) * 1024 + 1 * r.val = mm.val; omega
  | ⟨1, _⟩ => show win0_1.index t (1 : Fin 2) * 13 + 1 * k.val = k.val; omega

/-! ## The arrays prepared before the launch -/

/-- The first weight matrix as the region finds it: transposed (the change of format is the identity here). -/
theorem V_v1 (c : Dev nD) : (V m c main_v1 : S13x300.Idx → EReal)
    = truncf (F := Ideal) .bf16 (transpose S13x300 [1, 0] (m ((c : Thread nD τ).loc main_arg2)) transposes_S300x13_S13x300_1_0) bitsLt_bf16_f32 := by
  dsimp only [V]
  simp only [hostOps0, hostOps0_1, hostOps0_2, List.flatten_cons, List.flatten_nil, List.append_nil, List.cons_append,
    List.nil_append]
  after_results

theorem V_v3 (c : Dev nD) : (V m c main_v3 : S300x600.Idx → EReal)
    = truncf (F := Ideal) .bf16 (transpose S300x600 [1, 0] (m ((c : Thread nD τ).loc main_arg4)) transposes_S600x300_S300x600_1_0) bitsLt_bf16_f32 := by
  dsimp only [V]
  simp only [hostOps0, hostOps0_1, hostOps0_2, List.flatten_cons, List.flatten_nil, List.append_nil, List.cons_append,
    List.nil_append]
  after_results

theorem V_v5 (c : Dev nD) : (V m c main_v5 : S600x100.Idx → EReal)
    = truncf (F := Ideal) .bf16 (transpose S600x100 [1, 0] (m ((c : Thread nD τ).loc main_arg6)) transposes_S100x600_S600x100_1_0) bitsLt_bf16_f32 := by
  dsimp only [V]
  simp only [hostOps0, hostOps0_1, hostOps0_2, List.flatten_cons, List.flatten_nil, List.append_nil, List.cons_append,
    List.nil_append]
  after_results

theorem V_v7 (c : Dev nD) : (V m c main_v7 : S100x13.Idx → EReal)
    = truncf (F := Ideal) .bf16 (transpose S100x13 [1, 0] (m ((c : Thread nD τ).loc main_arg8)) transposes_S13x100_S100x13_1_0) bitsLt_bf16_f32 := by
  dsimp only [V]
  simp only [hostOps0, hostOps0_1, hostOps0_2, List.flatten_cons, List.flatten_nil, List.append_nil, List.cons_append,
    List.nil_append]
  after_results

/-- The values as the region finds them: each row divided by the larger of its norm and the small constant. -/
theorem V_v13 (c : Dev nD) : (V m c main_v13 : S2048x13.Idx → EReal)
    = truncf .bf16 (Host.divf (m ((c : Thread nD τ).loc main_arg1))
        (broadcastInDim S2048x13 ![0, 1] bcast_S2048x1_S2048x13_0_1
          (maximumf
            (Host.sqrt (broadcastInDim S2048x1 ![0] bcast_S2048_S2048x1_0
              (Host.reduceAdd (mulf (m ((c : Thread nD τ).loc main_arg1)) (m ((c : Thread nD τ).loc main_arg1)))
                (constant (F := Ideal) S_ .f32 0x00000000#32) reducesTo_S2048x13_S2048_d1 h_S_)))
            (broadcastInDim S2048x1 ![] bcast_S_S2048x1 (constant (F := Ideal) S_ .f32 0x322BCC77#32))))) bitsLt_bf16_f32 := by
  dsimp only [V]
  simp only [hostOps0, hostOps0_1, hostOps0_2, List.flatten_cons, List.flatten_nil, List.append_nil, List.cons_append,
    List.nil_append]
  after_results; rfl

/-! ## The blocks as the arguments -/

/-- Every point's first weight block is the whole first weight matrix read transposed. -/
theorem w1Blk_eq (c : Dev nD) (t : Fin cfg0.N) :
    (w1Blk m c t : S13x300.Idx → EReal) = tr (m ((c : Thread nD τ).loc main_arg2)) := by
  obtain ⟨-, -, -, -, e0, e1, -⟩ := idx_facts t
  funext i
  obtain ⟨k, j, rfl⟩ : ∃ (k : Fin 13) (j : Fin 300), i = ix2 k j := ⟨i 0, i 1, eq_ix2 i⟩
  have hi : ((cfg0.win 2).blk t).view.emb (ix2 k j) = ix2 k j := by
    funext a; apply Fin.ext
    match a with
    | ⟨0, _⟩ => show win0_2.index t (0 : Fin 2) * 13 + 1 * k.val = k.val; omega
    | ⟨1, _⟩ => show win0_2.index t (1 : Fin 2) * 300 + 1 * j.val = j.val; omega
  show V m c main_v1 (((cfg0.win 2).blk t).view.emb (ix2 k j)) = _
  rw [hi, V_v1]
  exact transpose_ix2_apply _ _ k j

theorem w2Blk_eq (c : Dev nD) (t : Fin cfg0.N) :
    (w2Blk m c t : S300x600.Idx → EReal) = tr (m ((c : Thread nD τ).loc main_arg4)) := by
  obtain ⟨-, -, -, -, -, -, -, e0, e1, -⟩ := idx_facts t
  funext i
  obtain ⟨k, j, rfl⟩ : ∃ (k : Fin 300) (j : Fin 600), i = ix2 k j := ⟨i 0, i 1, eq_ix2 i⟩
  have hi : ((cfg0.win 4).blk t).view.emb (ix2 k j) = ix2 k j := by
    funext a; apply Fin.ext
    match a with
    | ⟨0, _⟩ => show win0_4.index t (0 : Fin 2) * 300 + 1 * k.val = k.val; omega
    | ⟨1, _⟩ => show win0_4.index t (1 : Fin 2) * 600 + 1 * j.val = j.val; omega
  show V m c main_v3 (((cfg0.win 4).blk t).view.emb (ix2 k j)) = _
  rw [hi, V_v3]
  exact transpose_ix2_apply _ _ k j

theorem w3Blk_eq (c : Dev nD) (t : Fin cfg0.N) :
    (w3Blk m c t : S600x100.Idx → EReal) = tr (m ((c : Thread nD τ).loc main_arg6)) := by
  obtain ⟨-, -, -, -, -, -, -, -, -, -, e0, e1, -⟩ := idx_facts t
  funext i
  obtain ⟨k, j, rfl⟩ : ∃ (k : Fin 600) (j : Fin 100), i = ix2 k j := ⟨i 0, i 1, eq_ix2 i⟩
  have hi : ((cfg0.win 6).blk t).view.emb (ix2 k j) = ix2 k j := by
    funext a; apply Fin.ext
    match a with
    | ⟨0, _⟩ => show win0_6.index t (0 : Fin 2) * 600 + 1 * k.val = k.val; omega
    | ⟨1, _⟩ => show win0_6.index t (1 : Fin 2) * 100 + 1 * j.val = j.val; omega
  show V m c main_v5 (((cfg0.win 6).blk t).view.emb (ix2 k j)) = _
  rw [hi, V_v5]
  exact transpose_ix2_apply _ _ k j

theorem w4Blk_eq (c : Dev nD) (t : Fin cfg0.N) :
    (w4Blk m c t : S100x13.Idx → EReal) = tr (m ((c : Thread nD τ).loc main_arg8)) := by
  obtain ⟨-, -, -, -, -, -, -, -, -, -, -, -, -, e0, e1, -⟩ := idx_facts t
  funext i
  obtain ⟨k, j, rfl⟩ : ∃ (k : Fin 100) (j : Fin 13), i = ix2 k j := ⟨i 0, i 1, eq_ix2 i⟩
  have hi : ((cfg0.win 8).blk t).view.emb (ix2 k j) = ix2 k j := by
    funext a; apply Fin.ext
    match a with
    | ⟨0, _⟩ => show win0_8.index t (0 : Fin 2) * 100 + 1 * k.val = k.val; omega
    | ⟨1, _⟩ => show win0_8.index t (1 : Fin 2) * 13 + 1 * j.val = j.val; omega
  show V m c main_v7 (((cfg0.win 8).blk t).view.emb (ix2 k j)) = _
  rw [hi, V_v7]
  exact transpose_ix2_apply _ _ k j

/-- Every point's bias blocks are the whole biases. -/
theorem b1Blk_eq (c : Dev nD) (t : Fin cfg0.N) :
    (b1Blk m c t : S300.Idx → EReal) = m ((c : Thread nD τ).loc main_arg3) := by
  obtain ⟨-, -, -, -, -, -, e0, -⟩ := idx_facts t
  funext i
  obtain ⟨j, rfl⟩ : ∃ j : Fin 300, i = ix1 j := ⟨i 0, eq_ix1 i⟩
  rw [← V_main_arg3 m c]
  show V m c main_arg3 (((cfg0.win 3).blk t).view.emb (ix1 j)) = V m c main_arg3 (ix1 j)
  refine congrArg _ (funext fun a => Fin.ext ?_)
  match a with
  | ⟨0, _⟩ => show win0_3.index t (0 : Fin 1) * 300 + 1 * j.val = j.val; omega

theorem b2Blk_eq (c : Dev nD) (t : Fin cfg0.N) :
    (b2Blk m c t : S600.Idx → EReal) = m ((c : Thread nD τ).loc main_arg5) := by
  obtain ⟨-, -, -, -, -, -, -, -, -, e0, -⟩ := idx_facts t
  funext i
  obtain ⟨j, rfl⟩ : ∃ j : Fin 600, i = ix1 j := ⟨i 0, eq_ix1 i⟩
  rw [← V_main_arg5 m c]
  show V m c main_arg5 (((cfg0.win 5).blk t).view.emb (ix1 j)) = V m c main_arg5 (ix1 j)
  refine congrArg _ (funext fun a => Fin.ext ?_)
  match a with
  | ⟨0, _⟩ => show win0_5.index t (0 : Fin 1) * 600 + 1 * j.val = j.val; omega

theorem b3Blk_eq (c : Dev nD) (t : Fin cfg0.N) :
    (b3Blk m c t : S100.Idx → EReal) = m ((c : Thread nD τ).loc main_arg7) := by
  obtain ⟨-, -, -, -, -, -, -, -, -, -, -, -, e0, -⟩ := idx_facts t
  funext i
  obtain ⟨j, rfl⟩ : ∃ j : Fin 100, i = ix1 j := ⟨i 0, eq_ix1 i⟩
  rw [← V_main_arg7 m c]
  show V m c main_arg7 (((cfg0.win 7).blk t).view.emb (ix1 j)) = V m c main_arg7 (ix1 j)
  refine congrArg _ (funext fun a => Fin.ext ?_)
  match a with
  | ⟨0, _⟩ => show win0_7.index t (0 : Fin 1) * 100 + 1 * j.val = j.val; omega

theorem b4Blk_eq (c : Dev nD) (t : Fin cfg0.N) :
    (b4Blk m c t : S13.Idx → EReal) = m ((c : Thread nD τ).loc main_arg9) := by
  obtain ⟨-, -, -, -, -, -, -, -, -, -, -, -, -, -, -, e0⟩ := idx_facts t
  funext i
  obtain ⟨j, rfl⟩ : ∃ j : Fin 13, i = ix1 j := ⟨i 0, eq_ix1 i⟩
  rw [← V_main_arg9 m c]
  show V m c main_arg9 (((cfg0.win 9).blk t).view.emb (ix1 j)) = V m c main_arg9 (ix1 j)
  refine congrArg _ (funext fun a => Fin.ext ?_)
  match a with
  | ⟨0, _⟩ => show win0_9.index t (0 : Fin 1) * 13 + 1 * j.val = j.val; omega

end Cert.KernelIdeal.KBlocks

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.KernelLayers.lean ====
/-
  The kernel body's first three layers, read at one entry: row `q` of the block of memory rows, output `j`.
-/
import proofs.«130421_j65335042507035_1_alg».proof.Proof.Gen.KernelIdeal.Skeleton
import proofs.«130421_j65335042507035_1_alg».proof.Proof.Spec
import proofs.«130421_j65335042507035_1_alg».proof.Proof.LibContraction
import Idealize.ShloMosaic.Lib.Pipeline.Value
import Idealize.ShloMosaic.Lib.ValueLayout

noncomputable section

open scoped BigOperators

namespace Cert.KernelIdeal.Payload

open Cert.KernelIdeal Cert.KernelIdeal.Gen Idealize.ShloMosaic Idealize.ShloMosaic.ValueIdx Cert.Spec

/-! ## A matrix product of rows by columns, read at one entry

The three products of the layers are all of one kind: an `[m, n]` block times an `[n, p]` matrix, contracting the
block's second axis with the matrix's first, no batch axis. For any dimension numbers of that kind the operand indices
at output `(q, j)` and contraction position `k` are `(q, k)` and `(k, j)`. -/

section Product
variable {m n p : Nat} (d : DotDims ⟨2, ![m, n]⟩ ⟨2, ![n, p]⟩ ⟨2, ![m, p]⟩)

/-- The contracted extent of the left operand is `n`. -/
theorem lhs_extent : (⟨2, ![m, n]⟩ : Shape).size 1 = n := rfl

/-- The left operand's row is the output's row. -/
theorem lhs_axis0 (hlb : d.lhsBatch = []) (hln : d.lhsNonContracting = [0]) (q : Fin m) (j : Fin p) (k : d.contr.Idx) :
    (d.lhsIdx (ix2 q j) k 0).val = q.val :=
  Cert.Lib.Contraction.lhs_free d hlb hln (ix2 q j) k (Nat.succ_pos 1)

/-- The left operand's column is the contraction position. -/
theorem lhs_axis1 (hlc : d.lhsContracting = [1]) (q : Fin m) (j : Fin p) (k : Fin n) :
    (d.lhsIdx (ix2 q j) ((Cert.Lib.Contraction.contrFin d hlc n lhs_extent).symm k) 1).val = k.val :=
  Cert.Lib.Contraction.lhs_contracted d hlc n lhs_extent (ix2 q j) k

/-- The right operand's row is the contraction position. -/
theorem rhs_axis0 (hlc : d.lhsContracting = [1]) (hrc : d.rhsContracting = [0]) (q : Fin m) (j : Fin p) (k : Fin n) :
    (d.rhsIdx (ix2 q j) ((Cert.Lib.Contraction.contrFin d hlc n lhs_extent).symm k) 0).val = k.val :=
  Cert.Lib.Contraction.rhs_contracted d hlc hrc n lhs_extent (ix2 q j) k

/-- The right operand's column is the output's column. -/
theorem rhs_axis1 (hlb : d.lhsBatch = []) (hrb : d.rhsBatch = []) (hln : d.lhsNonContracting = [0])
    (hrn : d.rhsNonContracting = [1]) (q : Fin m) (j : Fin p) (k : d.contr.Idx) :
    (d.rhsIdx (ix2 q j) k 1).val = j.val :=
  Cert.Lib.Contraction.rhs_free d hlb hrb hln hrn (ix2 q j) k (Nat.lt_succ_self 1)

/-- The product into the zero accumulator, at `(q, j)`: the sum over the contracted axis of the products. -/
theorem product_apply (hlc : d.lhsContracting = [1]) (hrc : d.rhsContracting = [0]) (hln : d.lhsNonContracting = [0])
    (hrn : d.rhsNonContracting = [1]) (hlb : d.lhsBatch = []) (hrb : d.rhsBatch = [])
    (v : FVec Ideal ⟨2, ![m, n]⟩ .bf16) (w : FVec Ideal ⟨2, ![n, p]⟩ .bf16) (q : Fin m) (j : Fin p) :
    matmul d none v w (constant (F := Ideal) ⟨2, ![m, p]⟩ .f32 0x00000000#32) (ix2 q j)
      = ∑ k : Fin n, v (ix2 q k) * w (ix2 k j) := by
  refine (Ideal.matmul_constant_zero_apply d none v w (ix2 q j)).trans ?_
  refine (Cert.Lib.Contraction.sum_contr d hlc n lhs_extent _).trans ?_
  refine Finset.sum_congr rfl fun k _ => ?_
  have hl : d.lhsIdx (ix2 q j) ((Cert.Lib.Contraction.contrFin d hlc n lhs_extent).symm k) = ix2 q k := by
    funext a
    apply Fin.ext
    match a with
    | ⟨0, _⟩ => exact lhs_axis0 d hlb hln q j _
    | ⟨1, _⟩ => exact lhs_axis1 d hlc q j k
  have hr : d.rhsIdx (ix2 q j) ((Cert.Lib.Contraction.contrFin d hlc n lhs_extent).symm k) = ix2 k j := by
    funext a
    apply Fin.ext
    match a with
    | ⟨0, _⟩ => exact rhs_axis0 d hlc hrc q j k
    | ⟨1, _⟩ => exact rhs_axis1 d hlb hrb hln hrn q j _
  rw [hl, hr]

end Product

/-! ## The bias: a vector made a row and repeated down the block -/

/-- A `[b]` vector cast to `[1, b]` and broadcast to `[a, b]` reads, at `(q, j)`, the vector at `j`. -/
theorem bias_apply {a b : Nat} (x : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (q : Fin a) (j : Fin b) :
    broadcastTo ⟨2, ![a, b]⟩ (shapeCast ⟨2, ![1, b]⟩ x h1) h2 (ix2 q j) = x (ix1 j) :=
  (broadcastTo_1b_ab_apply _ h2 q j).trans (shapeCast_a_1a_apply x h1 0 j)

/-! ## One dense layer, read at one entry -/

section Layer
variable {m n p : Nat} (d : DotDims ⟨2, ![m, n]⟩ ⟨2, ![n, p]⟩ ⟨2, ![m, p]⟩)

/-- The product with the weights (under their identity cast) plus the repeated bias, at `(q, j)`: the affine map of row
    `q` at output `j`. -/
theorem affine_apply (hlc : d.lhsContracting = [1]) (hrc : d.rhsContracting = [0]) (hln : d.lhsNonContracting = [0])
    (hrn : d.rhsNonContracting = [1]) (hlb : d.lhsBatch = []) (hrb : d.rhsBatch = [])
    (v : FVec Ideal ⟨2, ![m, n]⟩ .bf16) (w : FVec Ideal ⟨2, ![n, p]⟩ .bf16) (b : FVec Ideal ⟨1, ![p]⟩ .f32)
    (hw : (⟨2, ![n, p]⟩ : Shape).ShapeCasts ⟨2, ![n, p]⟩)
    (h1 : (⟨1, ![p]⟩ : Shape).ShapeCasts ⟨2, ![1, p]⟩) (h2 : (⟨2, ![1, p]⟩ : Shape).Broadcasts ⟨2, ![m, p]⟩)
    (q : Fin m) (j : Fin p) :
    addf (matmul d none v (shapeCast ⟨2, ![n, p]⟩ w hw) (constant (F := Ideal) ⟨2, ![m, p]⟩ .f32 0x00000000#32))
        (broadcastTo ⟨2, ![m, p]⟩ (shapeCast ⟨2, ![1, p]⟩ b h1) h2) (ix2 q j)
      = affine w b (fun k => v (ix2 q k)) j := by
  rw [addf_apply, shapeCast_self, product_apply d hlc hrc hln hrn hlb hrb, bias_apply]
  rfl

/-- The splat of the single-precision zero is the extended real zero everywhere. -/
theorem zeros_apply (s : Shape) (i : s.Idx) :
    broadcast s (Scalar.ofBits (F := Ideal) .f32 0x00000000#32) i = (0 : EReal) :=
  Ideal.ofBits_zero_f32

/-- A layer whose activation is the maximum with zero, rounded to the narrower format (the identity on the extended
    reals), at `(q, j)`. -/
theorem layer_relu_apply (hlc : d.lhsContracting = [1]) (hrc : d.rhsContracting = [0]) (hln : d.lhsNonContracting = [0])
    (hrn : d.rhsNonContracting = [1]) (hlb : d.lhsBatch = []) (hrb : d.rhsBatch = [])
    (v : FVec Ideal ⟨2, ![m, n]⟩ .bf16) (w : FVec Ideal ⟨2, ![n, p]⟩ .bf16) (b : FVec Ideal ⟨1, ![p]⟩ .f32)
    (hw : (⟨2, ![n, p]⟩ : Shape).ShapeCasts ⟨2, ![n, p]⟩)
    (h1 : (⟨1, ![p]⟩ : Shape).ShapeCasts ⟨2, ![1, p]⟩) (h2 : (⟨2, ![1, p]⟩ : Shape).Broadcasts ⟨2, ![m, p]⟩)
    (hlt : FTy.bits .bf16 < FTy.bits .f32) (q : Fin m) (j : Fin p) :
    truncf .bf16
        (maximumf
          (addf (matmul d none v (shapeCast ⟨2, ![n, p]⟩ w hw) (constant (F := Ideal) ⟨2, ![m, p]⟩ .f32 0x00000000#32))
            (broadcastTo ⟨2, ![m, p]⟩ (shapeCast ⟨2, ![1, p]⟩ b h1) h2))
          (broadcast ⟨2, ![m, p]⟩ (Scalar.ofBits (F := Ideal) .f32 0x00000000#32))) hlt (ix2 q j)
      = relu (affine w b (fun k => v (ix2 q k)) j) := by
  rw [truncf_apply, maximumf_apply, affine_apply d hlc hrc hln hrn hlb hrb, zeros_apply]
  rfl

/-- The comparison-and-select form of the leaky rectifier at one extended real. -/
theorem leaky_select (z : EReal) :
    Scalar.select (FloatOps.cmpf (F := Ideal) (φ := .f32) .ogt z (Scalar.ofBits (F := Ideal) .f32 0x00000000#32)) z
        (z * Scalar.ofBits (F := Ideal) .f32 0x3C23D70A#32)
      = leaky z := by
  have h0 : Scalar.ofBits (F := Ideal) .f32 0x00000000#32 = (0 : EReal) := Ideal.ofBits_zero_f32
  rw [h0, Ideal.cmpf_def]
  unfold leaky
  by_cases hz : 0 < z
  · have hb : Ideal.cmp .ogt z 0 = 1#1 := by simp [Ideal.cmp, hz]
    rw [hb, select_one, if_pos hz]
  · have hb : Ideal.cmp .ogt z 0 = 0#1 := by simp [Ideal.cmp, hz]
    rw [hb, select_zero, if_neg hz]
    rfl

/-- A layer whose activation is the leaky rectifier, written as a comparison with zero and a select, rounded to the
    narrower format, at `(q, j)`. -/
theorem layer_leaky_apply (hlc : d.lhsContracting = [1]) (hrc : d.rhsContracting = [0]) (hln : d.lhsNonContracting = [0])
    (hrn : d.rhsNonContracting = [1]) (hlb : d.lhsBatch = []) (hrb : d.rhsBatch = [])
    (v : FVec Ideal ⟨2, ![m, n]⟩ .bf16) (w : FVec Ideal ⟨2, ![n, p]⟩ .bf16) (b : FVec Ideal ⟨1, ![p]⟩ .f32)
    (hw : (⟨2, ![n, p]⟩ : Shape).ShapeCasts ⟨2, ![n, p]⟩)
    (h1 : (⟨1, ![p]⟩ : Shape).ShapeCasts ⟨2, ![1, p]⟩) (h2 : (⟨2, ![1, p]⟩ : Shape).Broadcasts ⟨2, ![m, p]⟩)
    (hlt : FTy.bits .bf16 < FTy.bits .f32) (q : Fin m) (j : Fin p) :
    truncf .bf16
        (select
          (cmpf .ogt
            (addf (matmul d none v (shapeCast ⟨2, ![n, p]⟩ w hw) (constant (F := Ideal) ⟨2, ![m, p]⟩ .f32 0x00000000#32))
              (broadcastTo ⟨2, ![m, p]⟩ (shapeCast ⟨2, ![1, p]⟩ b h1) h2))
            (broadcast ⟨2, ![m, p]⟩ (Scalar.ofBits (F := Ideal) .f32 0x00000000#32)))
          (addf (matmul d none v (shapeCast ⟨2, ![n, p]⟩ w hw) (constant (F := Ideal) ⟨2, ![m, p]⟩ .f32 0x00000000#32))
            (broadcastTo ⟨2, ![m, p]⟩ (shapeCast ⟨2, ![1, p]⟩ b h1) h2))
          (mulf
            (addf (matmul d none v (shapeCast ⟨2, ![n, p]⟩ w hw) (constant (F := Ideal) ⟨2, ![m, p]⟩ .f32 0x00000000#32))
              (broadcastTo ⟨2, ![m, p]⟩ (shapeCast ⟨2, ![1, p]⟩ b h1) h2))
            (broadcast ⟨2, ![m, p]⟩ (Scalar.ofBits (F := Ideal) .f32 0x3C23D70A#32)))) hlt (ix2 q j)
      = leaky (affine w b (fun k => v (ix2 q k)) j) := by
  rw [truncf_apply, select_apply, cmpf_apply, mulf_apply, broadcast_apply, broadcast_apply,
    affine_apply d hlc hrc hln hrn hlb hrb]
  exact leaky_select _

end Layer

/-! ## The three layers -/

theorem pay3_apply (x1 : Vec Ideal S1024x13 .f32) (x2 : Vec Ideal S13x300 .bf16) (x3 : Vec Ideal S300 .f32)
    (x4 : Vec Ideal S300x600 .bf16) (x5 : Vec Ideal S600 .f32) (x6 : Vec Ideal S600x100 .bf16) (x7 : Vec Ideal S100 .f32)
    (q : Fin 1024) (j : Fin 100) :
    k0_pay3 x1 x2 x3 x4 x5 x6 x7 (ix2 q j) = net3 x2 x3 x4 x5 x6 x7 (fun k => x1 (ix2 q k)) j := by
  unfold k0_pay3
  refine (layer_relu_apply dot_S1024x600_S600x100_S1024x100_1_0_0_1_n_n rfl rfl rfl rfl rfl rfl _ x6 x7 _ _ _ _ q j).trans ?_
  unfold net3
  refine congrArg relu (congrArg (fun f => affine x6 x7 f j) (funext fun j2 => ?_))
  refine (layer_leaky_apply dot_S1024x300_S300x600_S1024x600_1_0_0_1_n_n rfl rfl rfl rfl rfl rfl _ x4 x5 _ _ _ _ q j2).trans ?_
  refine congrArg leaky (congrArg (fun f => affine x4 x5 f j2) (funext fun j1 => ?_))
  exact layer_relu_apply dot_S1024x13_S13x300_S1024x300_1_0_0_1_n_n rfl rfl rfl rfl rfl rfl _ x2 x3 _ _ _ _ q j1

end Cert.KernelIdeal.Payload

end
-- ==== Proof.KernelScore.lean ====
/-
  The rest of the kernel body, read at one lane `ℓ` of its output block: the fourth layer and the normalisation of each
  memory row of the block, the scaled inner products with value row `ℓ`, their maximum over the block's rows, and the
  maximum of that with what the output block held before.
-/
import proofs.«130421_j65335042507035_1_alg».proof.Proof.Gen.KernelIdeal.Skeleton
import proofs.«130421_j65335042507035_1_alg».proof.Proof.Spec
import proofs.«130421_j65335042507035_1_alg».proof.Proof.LibContraction
import Idealize.ShloMosaic.Lib.Pipeline.Value
import Idealize.ShloMosaic.Lib.ValueLayout

noncomputable section

open scoped BigOperators

namespace Cert.KernelIdeal.Payload

open Cert.KernelIdeal Cert.KernelIdeal.Gen Idealize.ShloMosaic Idealize.ShloMosaic.ValueIdx Cert.Spec

theorem pay1_apply (ℓ : Fin 1024) : (k0_pay1 (F := Ideal)) (ix1 ℓ) = floorInit := rfl

namespace Score

/-- The pattern of minus infinity. -/
theorem ofBits_neg_inf : Ideal.ofBits .f32 0xFF800000#32 = ⊥ := by
  simp [Ideal.ofBits, Ideal.ieee]

/-- A vector cast to a one-column matrix reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over row q of a matrix reduced along its columns, the index with k inserted is (q, k). -/
theorem lift_row {a b : ℕ} (h : (⟨2, ![a, b]⟩ : Shape).Reduces [1] ⟨1, ![a]⟩) (q : Fin a) (k : Fin b) :
    h.lift (ix1 q) k = ix2 q k := by
  funext c
  refine Fin.ext ?_
  match c with
  | ⟨0, _⟩ => rfl
  | ⟨1, _⟩ => rfl

/-- A sum along the columns, at row q. -/
theorem rowSum_apply (src : FVec Ideal S1024x13 .f32) (q : Fin 1024) :
    multiReduction (F := Ideal) .add [1] S1024 src 0x00000000#32 reduces_S1024x13_S1024 (.inl rfl) rfl (ix1 q)
      = ∑ k : Fin 13, src (ix2 q k) := by
  refine (Ideal.multiReduction_add_single src _ reduces_S1024x13_S1024 _ _ (ix1 q)).trans ?_
  exact Finset.sum_congr rfl fun k _ => congrArg src (lift_row _ q k)

/-- A maximum along the columns from minus infinity, at row p. -/
theorem rowMax_apply (src : FVec Ideal S1024x1024 .f32) (p : Fin 1024) :
    multiReduction (F := Ideal) .maximumf [1] S1024 src 0xFF800000#32 reduces_S1024x1024_S1024 (.inl rfl) rfl (ix1 p)
      = (Finset.univ : Finset (Fin 1024)).fold max ⊥ fun q => src (ix2 p q) := by
  refine (Ideal.multiReduction_maximumf_single src _ reduces_S1024x1024_S1024 _ _ (ix1 p)).trans ?_
  rw [Ideal.ofBits_def, ofBits_neg_inf]
  exact Finset.fold_congr fun q _ => congrArg src (lift_row _ p q)

/-! The fourth layer's product: rows of the left operand against columns of the right. -/

theorem layer_lhs_0 (j : S1024x13.Idx) (k : dot_S1024x100_S100x13_S1024x13_1_0_0_1_n_n.contr.Idx) :
    (dot_S1024x100_S100x13_S1024x13_1_0_0_1_n_n.lhsIdx j k 0).val = (j 0).val :=
  Cert.Lib.Contraction.lhs_free _ rfl rfl j k (by decide)

theorem layer_lhs_1 (j : S1024x13.Idx) (i : Fin 100) :
    (dot_S1024x100_S100x13_S1024x13_1_0_0_1_n_n.lhsIdx j
      ((Cert.Lib.Contraction.contrFin dot_S1024x100_S100x13_S1024x13_1_0_0_1_n_n (cl := 1) rfl 100 rfl).symm i) 1).val = i.val :=
  Cert.Lib.Contraction.lhs_contracted _ rfl 100 rfl j i

theorem layer_rhs_0 (j : S1024x13.Idx) (i : Fin 100) :
    (dot_S1024x100_S100x13_S1024x13_1_0_0_1_n_n.rhsIdx j
      ((Cert.Lib.Contraction.contrFin dot_S1024x100_S100x13_S1024x13_1_0_0_1_n_n (cl := 1) rfl 100 rfl).symm i) 0).val = i.val :=
  Cert.Lib.Contraction.rhs_contracted _ rfl rfl 100 rfl j i

theorem layer_rhs_1 (j : S1024x13.Idx) (k : dot_S1024x100_S100x13_S1024x13_1_0_0_1_n_n.contr.Idx) :
    (dot_S1024x100_S100x13_S1024x13_1_0_0_1_n_n.rhsIdx j k 1).val = (j 1).val :=
  Cert.Lib.Contraction.rhs_free _ rfl rfl rfl rfl j k (by decide)

/-- The product into the zero accumulator, at (q, d): the sum over the hundred inner positions. -/
theorem layer_matmul_apply (lhs : FVec Ideal S1024x100 .bf16) (rhs : FVec Ideal S100x13 .bf16) (q : Fin 1024) (d : Fin 13) :
    matmul dot_S1024x100_S100x13_S1024x13_1_0_0_1_n_n none lhs rhs (constant (F := Ideal) S1024x13 .f32 0x00000000#32) (ix2 q d)
      = ∑ k : Fin 100, lhs (ix2 q k) * rhs (ix2 k d) := by
  refine (Ideal.matmul_constant_zero_apply _ none lhs rhs (ix2 q d)).trans ?_
  refine (Cert.Lib.Contraction.sum_contr dot_S1024x100_S100x13_S1024x13_1_0_0_1_n_n (cl := 1) rfl 100 rfl _).trans ?_
  refine Finset.sum_congr rfl fun k _ => ?_
  have hl : dot_S1024x100_S100x13_S1024x13_1_0_0_1_n_n.lhsIdx (ix2 q d)
      ((Cert.Lib.Contraction.contrFin dot_S1024x100_S100x13_S1024x13_1_0_0_1_n_n (cl := 1) rfl 100 rfl).symm k) = ix2 q k := by
    funext c
    refine Fin.ext ?_
    match c with
    | ⟨0, _⟩ => exact layer_lhs_0 _ _
    | ⟨1, _⟩ => exact layer_lhs_1 _ _
  have hr : dot_S1024x100_S100x13_S1024x13_1_0_0_1_n_n.rhsIdx (ix2 q d)
      ((Cert.Lib.Contraction.contrFin dot_S1024x100_S100x13_S1024x13_1_0_0_1_n_n (cl := 1) rfl 100 rfl).symm k) = ix2 k d := by
    funext c
    refine Fin.ext ?_
    match c with
    | ⟨0, _⟩ => exact layer_rhs_0 _ _
    | ⟨1, _⟩ => exact layer_rhs_1 _ _
  rw [hl, hr]

/-! The product of scores: rows of the left operand against ROWS of the right. -/

theorem score_lhs_0 (j : S1024x1024.Idx) (k : dot_S1024x13_S1024x13_S1024x1024_1_1_0_0_n_n.contr.Idx) :
    (dot_S1024x13_S1024x13_S1024x1024_1_1_0_0_n_n.lhsIdx j k 0).val = (j 0).val :=
  Cert.Lib.Contraction.lhs_free _ rfl rfl j k (by decide)

theorem score_lhs_1 (j : S1024x1024.Idx) (i : Fin 13) :
    (dot_S1024x13_S1024x13_S1024x1024_1_1_0_0_n_n.lhsIdx j
      ((Cert.Lib.Contraction.contrFin dot_S1024x13_S1024x13_S1024x1024_1_1_0_0_n_n (cl := 1) rfl 13 rfl).symm i) 1).val = i.val :=
  Cert.Lib.Contraction.lhs_contracted _ rfl 13 rfl j i

theorem score_rhs_1 (j : S1024x1024.Idx) (i : Fin 13) :
    (dot_S1024x13_S1024x13_S1024x1024_1_1_0_0_n_n.rhsIdx j
      ((Cert.Lib.Contraction.contrFin dot_S1024x13_S1024x13_S1024x1024_1_1_0_0_n_n (cl := 1) rfl 13 rfl).symm i) 1).val = i.val :=
  Cert.Lib.Contraction.rhs_contracted _ rfl rfl 13 rfl j i

theorem score_rhs_0 (j : S1024x1024.Idx) (k : dot_S1024x13_S1024x13_S1024x1024_1_1_0_0_n_n.contr.Idx) :
    (dot_S1024x13_S1024x13_S1024x1024_1_1_0_0_n_n.rhsIdx j k 0).val = (j 1).val :=
  Cert.Lib.Contraction.rhs_free _ rfl rfl rfl rfl j k (by decide)

/-- The product into the zero accumulator, at (p, q): the inner product of row p of the left operand and row q of the
    right. -/
theorem score_matmul_apply (lhs rhs : FVec Ideal S1024x13 .bf16) (p q : Fin 1024) :
    matmul dot_S1024x13_S1024x13_S1024x1024_1_1_0_0_n_n none lhs rhs (constant (F := Ideal) S1024x1024 .f32 0x00000000#32) (ix2 p q)
      = ∑ d : Fin 13, lhs (ix2 p d) * rhs (ix2 q d) := by
  refine (Ideal.matmul_constant_zero_apply _ none lhs rhs (ix2 p q)).trans ?_
  refine (Cert.Lib.Contraction.sum_contr dot_S1024x13_S1024x13_S1024x1024_1_1_0_0_n_n (cl := 1) rfl 13 rfl _).trans ?_
  refine Finset.sum_congr rfl fun d _ => ?_
  have hl : dot_S1024x13_S1024x13_S1024x1024_1_1_0_0_n_n.lhsIdx (ix2 p q)
      ((Cert.Lib.Contraction.contrFin dot_S1024x13_S1024x13_S1024x1024_1_1_0_0_n_n (cl := 1) rfl 13 rfl).symm d) = ix2 p d := by
    funext c
    refine Fin.ext ?_
    match c with
    | ⟨0, _⟩ => exact score_lhs_0 _ _
    | ⟨1, _⟩ => exact score_lhs_1 _ _
  have hr : dot_S1024x13_S1024x13_S1024x1024_1_1_0_0_n_n.rhsIdx (ix2 p q)
      ((Cert.Lib.Contraction.contrFin dot_S1024x13_S1024x13_S1024x1024_1_1_0_0_n_n (cl := 1) rfl 13 rfl).symm d) = ix2 q d := by
    funext c
    refine Fin.ext ?_
    match c with
    | ⟨0, _⟩ => exact score_rhs_0 _ _
    | ⟨1, _⟩ => exact score_rhs_1 _ _
  rw [hl, hr]

/-! The pieces of the body, each over a variable operand, read at an index. -/

/-- The rectifier's select at an element: the element above zero, the element times the slope otherwise. -/
theorem leaky_select_apply (z : FVec Ideal S1024x13 .f32) (i : S1024x13.Idx) :
    select (cmpf .ogt z (broadcast S1024x13 (Scalar.ofBits (F := Ideal) .f32 0x00000000#32))) z
      (mulf z (broadcast S1024x13 (Scalar.ofBits (F := Ideal) .f32 0x3C23D70A#32))) i = leaky (z i) := by
  show Scalar.select (Ideal.cmp .ogt (z i) (Ideal.ofBits .f32 0x00000000#32)) (z i)
    (z i * Ideal.ofBits .f32 0x3C23D70A#32) = _
  rw [Ideal.ofBits_zero_f32]
  unfold leaky Ideal.cmp Scalar.select Cert.Spec.slope
  by_cases h : 0 < z i
  · simp [h]
  · simp [h]

/-- The fourth layer before its rectifier, at (q, d): the affine map of row q of the left operand. -/
theorem affine_apply (v34 : FVec Ideal S1024x100 .bf16) (x8 : Vec Ideal S100x13 .bf16) (x9 : Vec Ideal S13 .f32)
    (q : Fin 1024) (d : Fin 13) :
    addf (matmul (φ₂ := .bf16) dot_S1024x100_S100x13_S1024x13_1_0_0_1_n_n none v34
          (shapeCast S100x13 x8 shapeCasts_S100x13_S100x13) (constant (F := Ideal) S1024x13 .f32 0x00000000#32))
        (broadcastTo S1024x13 (shapeCast S1x13 x9 shapeCasts_S13_S1x13) broadcasts_S1x13_S1024x13) (ix2 q d)
      = affine x8 x9 (fun j => v34 (ix2 q j)) d := by
  rw [addf_apply, shapeCast_self, layer_matmul_apply, broadcastTo_1b_ab_apply, shapeCast_a_1a_apply]
  rfl

/-- A matrix divided, row by row, by the larger of the row's Euclidean norm and the lower clamp, at (q, d). -/
theorem unit_apply (w : FVec Ideal S1024x13 .f32) (q : Fin 1024) (d : Fin 13) :
    divf w (broadcastTo S1024x13
        (maximumf (sqrt (shapeCast S1024x1
            (multiReduction (F := Ideal) .add [1] S1024 (mulf w w) 0x00000000#32 reduces_S1024x13_S1024 (.inl rfl) rfl)
            shapeCasts_S1024_S1024x1))
          (broadcast S1024x1 (Scalar.ofBits (F := Ideal) .f32 0x322BCC77#32)))
        broadcasts_S1024x1_S1024x13) (ix2 q d)
      = unit (fun e => w (ix2 q e)) d := by
  rw [divf_apply, broadcastTo_a1_ab_apply, maximumf_apply]
  show Ideal.div (w (ix2 q d)) (max (Ideal.sqrt (shapeCast S1024x1
      (multiReduction (F := Ideal) .add [1] S1024 (mulf w w) 0x00000000#32 reduces_S1024x13_S1024 (.inl rfl) rfl)
      shapeCasts_S1024_S1024x1 (ix2 q (0 : Fin 1)))) eps) = _
  rw [shapeCast_a_a1_apply, rowSum_apply]
  rfl

/-- The scaled inner products of row p of the left operand with every row of the right, their maximum from minus
    infinity, and the maximum of that with the earlier value, at lane p. -/
theorem best_apply (x0 : Vec Ideal S1024x13 .bf16) (u : FVec Ideal S1024x13 .bf16) (acc : Vec Ideal S1024 .f32)
    (p : Fin 1024) :
    maximumf (shapeCast S1024 acc shapeCasts_S1024_S1024)
      (multiReduction (F := Ideal) .maximumf [1] S1024
        (mulf (matmul (φ₁ := .bf16) dot_S1024x13_S1024x13_S1024x1024_1_1_0_0_n_n none
            (shapeCast S1024x13 x0 shapeCasts_S1024x13_S1024x13) u (constant (F := Ideal) S1024x1024 .f32 0x00000000#32))
          (broadcast S1024x1024 (Scalar.ofBits (F := Ideal) .f32 0x41B80000#32)))
        0xFF800000#32 reduces_S1024x1024_S1024 (.inl rfl) rfl) (ix1 p)
      = max (acc (ix1 p)) ((Finset.univ : Finset (Fin 1024)).fold max ⊥ fun q =>
          score (fun d => x0 (ix2 p d)) (fun d => u (ix2 q d))) := by
  rw [maximumf_apply, shapeCast_self, shapeCast_self, rowMax_apply]
  refine congrArg (max (acc (ix1 p))) (Finset.fold_congr fun q _ => ?_)
  rw [mulf_apply, score_matmul_apply]
  rfl

end Score

theorem pay2_apply_of (v34 : FVec Ideal S1024x100 .bf16) (x8 : Vec Ideal S100x13 .bf16) (x9 : Vec Ideal S13 .f32)
    (x0 : Vec Ideal S1024x13 .bf16) (acc : Vec Ideal S1024 .f32) (ℓ : Fin 1024) :
    k0_pay2 v34 (k0_pay4 x8) (constant S1024x13 .f32 0x00000000#32) x9 x0 acc (ix1 ℓ)
      = max (acc (ix1 ℓ)) ((Finset.univ : Finset (Fin 1024)).fold max ⊥ fun q =>
          score (fun d => x0 (ix2 ℓ d)) (unit fun d => leaky (affine x8 x9 (fun j => v34 (ix2 q j)) d))) := by
  unfold k0_pay2 k0_pay4
  dsimp only
  refine (Score.best_apply x0 _ acc ℓ).trans ?_
  refine congrArg (max (acc (ix1 ℓ))) (Finset.fold_congr fun q _ => ?_)
  refine congrArg (score fun d => x0 (ix2 ℓ d)) (funext fun d => ?_)
  rw [truncf_apply]
  refine (Score.unit_apply _ q d).trans ?_
  refine congrFun (congrArg unit (funext fun e => ?_)) d
  refine (Score.leaky_select_apply _ _).trans ?_
  exact congrArg leaky (Score.affine_apply v34 x8 x9 q e)

end Cert.KernelIdeal.Payload

end
-- ==== Proof.Bound.lean ====
/-
  A normalised row lies between -1 and 1 in every coordinate, whatever the row, so a score is never below the finite
  value the running maximum starts from.
-/
import proofs.«130421_j65335042507035_1_alg».proof.Proof.Spec

noncomputable section

open scoped BigOperators

namespace Cert.Spec

open Idealize.ShloMosaic

/-! ### The three literals -/

/-- The scale of a score is the real number 23. -/
theorem scale_eq : scale = ((23 : ℝ) : EReal) := by
  unfold scale
  simp [Ideal.ofBits, Ideal.ieee, -EReal.coe_mul]; norm_num

/-- The lower clamp of a norm is a positive real number. -/
theorem eps_pos : ∃ e : ℝ, 0 < e ∧ eps = (e : EReal) := by
  unfold eps
  simp [Ideal.ofBits, Ideal.ieee, -EReal.coe_mul]

/-- The starting value of the running maximum is a real number below -299 (it is `-13234890 · 2^76`). -/
theorem floorInit_le : floorInit ≤ ((-299 : ℝ) : EReal) := by
  unfold floorInit
  simp [Ideal.ofBits, Ideal.ieee, -EReal.coe_mul]
  norm_num

/-! ### Sums and squares in the extended reals -/

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of coerced reals is the coercion of the real sum of products. -/
theorem sum_coe_mul_coe {n : Nat} (a b : Fin n → ℝ) :
    (∑ k : Fin n, (a k : EReal) * (b k : EReal)) = ((∑ k : Fin n, a k * b k : ℝ) : EReal) := by
  rw [coe_finset_sum]
  exact Finset.sum_congr rfl fun k _ => (EReal.coe_mul (a k) (b k)).symm

/-- The larger of two coerced reals is the coercion of the larger. -/
theorem max_coe_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A square is nonnegative in the extended reals: the square of either infinity is `⊤`. -/
theorem mul_self_nonneg_ereal (z : EReal) : 0 ≤ z * z := by
  induction z with
  | bot => rw [EReal.bot_mul_bot]; exact le_top
  | coe r => rw [← EReal.coe_mul]; exact EReal.coe_nonneg.2 (mul_self_nonneg r)
  | top => rw [EReal.top_mul_top]; exact le_top

/-! ### A normalised row -/

/-- A row of reals, normalised: each coordinate is the real quotient by the larger of the norm and the clamp. -/
theorem unit_coe {n : Nat} (r : Fin n → ℝ) (d : Fin n) {e : ℝ} (he : 0 < e) (heps : eps = (e : EReal)) :
    unit (fun k => (r k : EReal)) d = ((r d / max (Real.sqrt (∑ k : Fin n, r k * r k)) e : ℝ) : EReal) := by
  have hS0 : ¬ (∑ k : Fin n, r k * r k) < 0 :=
    not_lt.2 (Finset.sum_nonneg fun k _ => mul_self_nonneg (r k))
  have hD : max (Real.sqrt (∑ k : Fin n, r k * r k)) e ≠ 0 := (lt_max_of_lt_right he).ne'
  unfold unit
  rw [sum_coe_mul_coe, Ideal.sqrt_coe, if_neg hS0, heps, max_coe_coe, Ideal.div_coe hD, ← EReal.coe_mul,
    mul_one_div]

/-- A row with an infinite coordinate has an infinite sum of squares, so its normalised row is zero. -/
theorem unit_of_not_coe {n : Nat} (x : Fin n → EReal) (d : Fin n) {k : Fin n} (hk : ∀ r : ℝ, x k ≠ (r : EReal)) :
    unit x d = 0 := by
  have hkk : x k * x k = ⊤ := by
    generalize x k = z at hk
    induction z with
    | bot => exact EReal.bot_mul_bot
    | coe r => exact absurd rfl (hk r)
    | top => exact EReal.top_mul_top
  have hN : (∑ j : Fin n, x j * x j) = ⊤ := by
    apply top_le_iff.1
    rw [← hkk]
    exact Finset.single_le_sum (f := fun j => x j * x j) (fun j _ => mul_self_nonneg_ereal (x j))
      (Finset.mem_univ k)
  unfold unit
  rw [hN, Ideal.sqrt_top, max_eq_left le_top, Ideal.div, if_neg EReal.top_ne_zero, EReal.inv_top, mul_zero]

theorem unit_mem {n : Nat} (x : Fin n → EReal) (d : Fin n) : -1 ≤ unit x d ∧ unit x d ≤ 1 := by
  obtain ⟨e, he, heps⟩ := eps_pos
  by_cases h : ∀ k, ∃ r : ℝ, x k = r
  · -- Every coordinate is real: the quotient of a coordinate by something at least the norm.
    choose r hr using h
    obtain rfl : x = fun k => (r k : EReal) := funext hr
    rw [unit_coe r d he heps]
    have hD : 0 < max (Real.sqrt (∑ k : Fin n, r k * r k)) e := lt_max_of_lt_right he
    have habs : |r d| ≤ max (Real.sqrt (∑ k : Fin n, r k * r k)) e := by
      refine le_trans (Real.abs_le_sqrt ?_) (le_max_left _ _)
      rw [sq]
      exact Finset.single_le_sum (f := fun k => r k * r k) (fun k _ => mul_self_nonneg (r k))
        (Finset.mem_univ d)
    obtain ⟨h1, h2⟩ := abs_le.1 habs
    constructor
    · rw [← EReal.coe_one, ← EReal.coe_neg, EReal.coe_le_coe_iff, le_div_iff₀ hD]
      linarith
    · rw [← EReal.coe_one, EReal.coe_le_coe_iff, div_le_iff₀ hD]
      linarith
  · -- Some coordinate is infinite: the normalised row is zero.
    obtain ⟨k, hk⟩ := not_forall.1 h
    rw [unit_of_not_coe x d fun r hr => hk ⟨r, hr⟩]
    constructor
    · rw [← EReal.coe_one, ← EReal.coe_neg, ← EReal.coe_zero, EReal.coe_le_coe_iff]
      norm_num
    · exact zero_le_one

/-! ### A score of two rows with coordinates in `[-1, 1]` -/

/-- An extended real between -1 and 1 is a real between -1 and 1. -/
theorem exists_coe_of_mem (z : EReal) (hz : -1 ≤ z ∧ z ≤ 1) : ∃ a : ℝ, z = (a : EReal) ∧ -1 ≤ a ∧ a ≤ 1 := by
  induction z with
  | bot =>
    have h : (((-1 : ℝ)) : EReal) ≤ ⊥ := by rw [EReal.coe_neg, EReal.coe_one]; exact hz.1
    exact absurd (le_bot_iff.1 h) (EReal.coe_ne_bot _)
  | coe a =>
    refine ⟨a, rfl, ?_, ?_⟩
    · have h := hz.1
      rw [← EReal.coe_one, ← EReal.coe_neg, EReal.coe_le_coe_iff] at h
      exact h
    · have h := hz.2
      rw [← EReal.coe_one, EReal.coe_le_coe_iff] at h
      exact h
  | top =>
    have h : (⊤ : EReal) ≤ ((1 : ℝ) : EReal) := by rw [EReal.coe_one]; exact hz.2
    exact absurd (top_le_iff.1 h) (EReal.coe_ne_top _)

theorem floorInit_le_score (u w : Fin 13 → EReal) (hu : ∀ d, -1 ≤ u d ∧ u d ≤ 1) (hw : ∀ d, -1 ≤ w d ∧ w d ≤ 1) :
    floorInit ≤ score u w := by
  choose a ha using fun d => exists_coe_of_mem (u d) (hu d)
  choose b hb using fun d => exists_coe_of_mem (w d) (hw d)
  obtain rfl : u = fun d => (a d : EReal) := funext fun d => (ha d).1
  obtain rfl : w = fun d => (b d : EReal) := funext fun d => (hb d).1
  -- Each product is at least -1, so the thirteen of them sum to at least -13.
  have hterm : ∀ d, -1 ≤ a d * b d := by
    intro d
    have h : |a d * b d| ≤ 1 := by
      rw [abs_mul]
      exact mul_le_one₀ (abs_le.2 (ha d).2) (abs_nonneg _) (abs_le.2 (hb d).2)
    exact (abs_le.1 h).1
  have hsum : (-13 : ℝ) ≤ ∑ d : Fin 13, a d * b d := by
    calc (-13 : ℝ) = ∑ _d : Fin 13, (-1 : ℝ) := by simp
      _ ≤ ∑ d : Fin 13, a d * b d := Finset.sum_le_sum fun d _ => hterm d
  unfold score
  rw [scale_eq, sum_coe_mul_coe, ← EReal.coe_mul]
  refine le_trans floorInit_le (EReal.coe_le_coe_iff.2 ?_)
  linarith

theorem floorInit_le_score_unit (x y : Fin 13 → EReal) : floorInit ≤ score (unit x) (unit y) :=
  floorInit_le_score _ _ (unit_mem x) (unit_mem y)

end Cert.Spec

end
-- ==== Proof.RefTerm.lean ====
/-
  The reference's result as one term of its ten arguments, stage by stage, in the operations its program applies:
  four dense layers over every memory row (`hidden1` … `hidden4`), each row of the last and each value row divided by
  the larger of its norm and a small constant (`unitRows`, `unitVals`), every value row's scaled products with every
  memory row (`scores`), and each value row's largest score (`refOut`).
-/
import proofs.«130421_j65335042507035_1_alg».proof.Proof.Gen.ReferenceIdeal

noncomputable section

namespace Cert.ReferenceIdeal.RefTerm

open Cert.ReferenceIdeal Cert.ReferenceIdeal.Gen Idealize.ShloMosaic Idealize.SL.Sem

variable {F : FTy → Type} [FloatOps F]

/-- The first layer: rows times the transposed weights, plus the bias, then `max · 0`. -/
def hidden1 (x : FVec F S65536x13 .f32) (W1 : FVec F S300x13 .f32) (b1 : FVec F S300 .f32) : FVec F S65536x300 .f32 :=
  maximumf
    (addf (Host.dotGeneral dot_S65536x13_S13x300_S65536x300_1_0_0_1_n_n none x (transpose S13x300 [1, 0] W1 transposes_S300x13_S13x300_1_0))
      (broadcastInDim S65536x300 ![0, 1] bcast_S1x300_S65536x300_0_1 (broadcastInDim S1x300 ![1] bcast_S300_S1x300_1 b1)))
    (broadcastInDim S65536x300 ![] bcast_S_S65536x300 (constant S_ .f32 0x00000000#32))

/-- The second layer's affine map. -/
def pre2 (h : FVec F S65536x300 .f32) (W2 : FVec F S600x300 .f32) (b2 : FVec F S600 .f32) : FVec F S65536x600 .f32 :=
  addf (Host.dotGeneral dot_S65536x300_S300x600_S65536x600_1_0_0_1_n_n none h (transpose S300x600 [1, 0] W2 transposes_S600x300_S300x600_1_0))
    (broadcastInDim S65536x600 ![0, 1] bcast_S1x600_S65536x600_0_1 (broadcastInDim S1x600 ![1] bcast_S600_S1x600_1 b2))

/-- The leaky rectifier as the reference spells it: the argument where it is at least zero, the slope times it elsewhere. -/
def hidden2 (z : FVec F S65536x600 .f32) : FVec F S65536x600 .f32 :=
  select (cmpf .oge z (broadcastInDim S65536x600 ![] bcast_S_S65536x600 (constant S_ .f32 0x00000000#32))) z
    (mulf (broadcastInDim S65536x600 ![] bcast_S_S65536x600 (constant S_ .f32 0x3C23D70A#32)) z)

/-- The third layer. -/
def hidden3 (h : FVec F S65536x600 .f32) (W3 : FVec F S100x600 .f32) (b3 : FVec F S100 .f32) : FVec F S65536x100 .f32 :=
  maximumf
    (addf (Host.dotGeneral dot_S65536x600_S600x100_S65536x100_1_0_0_1_n_n none h (transpose S600x100 [1, 0] W3 transposes_S100x600_S600x100_1_0))
      (broadcastInDim S65536x100 ![0, 1] bcast_S1x100_S65536x100_0_1 (broadcastInDim S1x100 ![1] bcast_S100_S1x100_1 b3)))
    (broadcastInDim S65536x100 ![] bcast_S_S65536x100 (constant S_ .f32 0x00000000#32))

/-- The fourth layer's affine map. -/
def pre4 (h : FVec F S65536x100 .f32) (W4 : FVec F S13x100 .f32) (b4 : FVec F S13 .f32) : FVec F S65536x13 .f32 :=
  addf (Host.dotGeneral dot_S65536x100_S100x13_S65536x13_1_0_0_1_n_n none h (transpose S100x13 [1, 0] W4 transposes_S13x100_S100x13_1_0))
    (broadcastInDim S65536x13 ![0, 1] bcast_S1x13_S65536x13_0_1 (broadcastInDim S1x13 ![1] bcast_S13_S1x13_1 b4))

/-- The leaky rectifier on the fourth layer. -/
def hidden4 (z : FVec F S65536x13 .f32) : FVec F S65536x13 .f32 :=
  select (cmpf .oge z (broadcastInDim S65536x13 ![] bcast_S_S65536x13 (constant S_ .f32 0x00000000#32))) z
    (mulf (broadcastInDim S65536x13 ![] bcast_S_S65536x13 (constant S_ .f32 0x3C23D70A#32)) z)

/-- Every memory row divided by the larger of its norm and the small constant. -/
def unitRows (t : FVec F S65536x13 .f32) : FVec F S65536x13 .f32 :=
  Host.divf t
    (broadcastInDim S65536x13 ![0, 1] bcast_S65536x1_S65536x13_0_1
      (maximumf
        (Host.sqrt (broadcastInDim S65536x1 ![0] bcast_S65536_S65536x1_0
          (Host.reduceAdd (mulf t t) (constant S_ .f32 0x00000000#32) reducesTo_S65536x13_S65536_d1 h_S_)))
        (broadcastInDim S65536x1 ![] bcast_S_S65536x1 (constant S_ .f32 0x322BCC77#32))))

/-- Every value row divided by the larger of its norm and the small constant. -/
def unitVals (v : FVec F S2048x13 .f32) : FVec F S2048x13 .f32 :=
  Host.divf v
    (broadcastInDim S2048x13 ![0, 1] bcast_S2048x1_S2048x13_0_1
      (maximumf
        (Host.sqrt (broadcastInDim S2048x1 ![0] bcast_S2048_S2048x1_0
          (Host.reduceAdd (mulf v v) (constant S_ .f32 0x00000000#32) reducesTo_S2048x13_S2048_d1 h_S_)))
        (broadcastInDim S2048x1 ![] bcast_S_S2048x1 (constant S_ .f32 0x322BCC77#32))))

/-- Every value row's inner product with every memory row, scaled. -/
def scores (u : FVec F S2048x13 .f32) (w : FVec F S65536x13 .f32) : FVec F S2048x65536 .f32 :=
  mulf (Host.dotGeneral dot_S2048x13_S13x65536_S2048x65536_1_0_0_1_n_n none u (transpose S13x65536 [1, 0] w transposes_S65536x13_S13x65536_1_0))
    (broadcastInDim S2048x65536 ![] bcast_S_S2048x65536 (constant S_ .f32 0x41B80000#32))

/-- The reference's result: each value row's largest score, the maximum taken from minus infinity. -/
def refOut (a0 : FVec F S65536x13 .f32) (a1 : FVec F S2048x13 .f32) (a2 : FVec F S300x13 .f32) (a3 : FVec F S300 .f32)
    (a4 : FVec F S600x300 .f32) (a5 : FVec F S600 .f32) (a6 : FVec F S100x600 .f32) (a7 : FVec F S100 .f32)
    (a8 : FVec F S13x100 .f32) (a9 : FVec F S13 .f32) : FVec F S2048 .f32 :=
  Host.reduce FloatOps.maximumf
    (scores (unitVals a1) (unitRows (hidden4 (pre4 (hidden3 (hidden2 (pre2 (hidden1 a0 a2 a3) a4 a5)) a6 a7) a8 a9))))
    (constant S_ .f32 0xFF800000#32) reducesTo_S2048x65536_S2048_d1 h_S_

end Cert.ReferenceIdeal.RefTerm

end
-- ==== Proof.RefScore.lean ====
/-
  The reference's normalisations, scores and final maximum, each read at one entry.
-/
import proofs.«130421_j65335042507035_1_alg».proof.Proof.RefTerm
import proofs.«130421_j65335042507035_1_alg».proof.Proof.Spec
import proofs.«130421_j65335042507035_1_alg».proof.Proof.LibContraction
import Idealize.ShloMosaic.Lib.Pipeline.Value
import Idealize.ShloMosaic.Lib.ValueLayout
import Idealize.ShloMosaic.Lib.IdealHost

noncomputable section

open scoped BigOperators

namespace Cert.ReferenceIdeal.RefValue

open Cert.ReferenceIdeal Cert.ReferenceIdeal.Gen Cert.ReferenceIdeal.RefTerm Idealize.ShloMosaic Idealize.ShloMosaic.ValueIdx Cert.Spec

/-- The host's square root at an index is the extended reals' square root of the element. -/
private theorem hostSqrt_apply {s : Shape} {φ : FTy} (x : FVec Ideal s φ) (i : s.Idx) : Host.sqrt x i = Ideal.sqrt (x i) := rfl

/-- The single-precision pattern of minus infinity is the bottom of the extended reals. -/
private theorem ofBits_negInf_f32 : Ideal.ofBits .f32 0xFF800000#32 = (⊥ : EReal) := by simp [Ideal.ofBits, Ideal.ieee]

/-- Entry (m, d) of the normalised memory rows: the entry divided by the divisor column's entry m, which is the larger
    of the square root of row m's sum of squares (the sum over the thirteen coordinates, from zero) and the constant. -/
theorem unitRows_apply (t : FVec Ideal S65536x13 .f32) (m : Fin 65536) (d : Fin 13) :
    unitRows t (ix2 m d) = unit (fun k => t (ix2 m k)) d := by
  unfold unitRows Cert.Spec.unit
  rw [hostDivf_apply]
  refine congrArg (Ideal.div (t (ix2 m d))) ?_
  -- the divisor is a one-column matrix copied along the second axis: at (m, d) it is the column at (m, 0)
  rw [broadcastInDim_apply ![0, 1] bcast_S65536x1_S65536x13_0_1 _ (ix2 m d) (ix2 m (0 : Fin 1)) (by
    intro a
    match a with
    | ⟨0, _⟩ => rfl
    | ⟨1, _⟩ => rfl)]
  rw [maximumf_apply, broadcastInDim_scalar_apply, constant_apply, hostSqrt_apply]
  -- the column of norms at (m, 0) is the vector of row sums at m
  rw [broadcastInDim_apply ![0] bcast_S65536_S65536x1_0 _ (ix2 m (0 : Fin 1)) (ix1 m) (by
    intro a
    match a with
    | ⟨0, _⟩ => rfl)]
  have hR : S65536x13.Reduces [1] S65536 := by decide
  rw [hostReduceAdd_apply, Ideal.hostReduceAdd_single reducesTo_S65536x13_S65536_d1 hR, constant_apply,
    Ideal.ofBits_zero_f32, zero_add]
  -- row index m with coordinate k put back on the summed axis is (m, k)
  have hl : ∀ k : Fin 13, hR.lift (ix1 m) k = ix2 m k := by
    intro k; funext a
    match a with
    | ⟨0, _⟩ => exact Fin.ext rfl
    | ⟨1, _⟩ => exact Fin.ext rfl
  refine congrArg₂ max (congrArg Ideal.sqrt (Finset.sum_congr rfl fun k _ => ?_)) rfl
  rw [mulf_apply, hl k]

/-- Entry (b, d) of the normalised value rows: the same reading, over the 2048 value rows. -/
theorem unitVals_apply (v : FVec Ideal S2048x13 .f32) (b : Fin 2048) (d : Fin 13) :
    unitVals v (ix2 b d) = unit (fun k => v (ix2 b k)) d := by
  unfold unitVals Cert.Spec.unit
  rw [hostDivf_apply]
  refine congrArg (Ideal.div (v (ix2 b d))) ?_
  -- the divisor is a one-column matrix copied along the second axis: at (b, d) it is the column at (b, 0)
  rw [broadcastInDim_apply ![0, 1] bcast_S2048x1_S2048x13_0_1 _ (ix2 b d) (ix2 b (0 : Fin 1)) (by
    intro a
    match a with
    | ⟨0, _⟩ => rfl
    | ⟨1, _⟩ => rfl)]
  rw [maximumf_apply, broadcastInDim_scalar_apply, constant_apply, hostSqrt_apply]
  -- the column of norms at (b, 0) is the vector of row sums at b
  rw [broadcastInDim_apply ![0] bcast_S2048_S2048x1_0 _ (ix2 b (0 : Fin 1)) (ix1 b) (by
    intro a
    match a with
    | ⟨0, _⟩ => rfl)]
  have hR : S2048x13.Reduces [1] S2048 := by decide
  rw [hostReduceAdd_apply, Ideal.hostReduceAdd_single reducesTo_S2048x13_S2048_d1 hR, constant_apply,
    Ideal.ofBits_zero_f32, zero_add]
  -- row index b with coordinate k put back on the summed axis is (b, k)
  have hl : ∀ k : Fin 13, hR.lift (ix1 b) k = ix2 b k := by
    intro k; funext a
    match a with
    | ⟨0, _⟩ => exact Fin.ext rfl
    | ⟨1, _⟩ => exact Fin.ext rfl
  refine congrArg₂ max (congrArg Ideal.sqrt (Finset.sum_congr rfl fun k _ => ?_)) rfl
  rw [mulf_apply, hl k]

/-- Entry (b, m) of the scores: the product of the value rows with the transposed memory rows at (b, m) is the sum over
    the thirteen coordinates d of u (b, d) · w (m, d); the splat it is multiplied by is the scale. -/
theorem scores_apply (u : FVec Ideal S2048x13 .f32) (w : FVec Ideal S65536x13 .f32) (b : Fin 2048) (m : Fin 65536) :
    scores u w (ix2 b m) = score (fun d => u (ix2 b d)) (fun d => w (ix2 m d)) := by
  unfold scores Cert.Spec.score
  rw [mulf_apply, broadcastInDim_scalar_apply, constant_apply]
  refine congrArg₂ (· * ·) ?_ rfl
  unfold Host.dotGeneral
  rw [Ideal.dotGeneral_apply]
  -- the dimension numbers: axis 1 of the left operand against axis 0 of the right, one free axis each, no batch axis
  have hcl : dot_S2048x13_S13x65536_S2048x65536_1_0_0_1_n_n.lhsContracting = [(1 : Fin S2048x13.rank)] := rfl
  have hcr : dot_S2048x13_S13x65536_S2048x65536_1_0_0_1_n_n.rhsContracting = [(0 : Fin S13x65536.rank)] := rfl
  have hnl : dot_S2048x13_S13x65536_S2048x65536_1_0_0_1_n_n.lhsNonContracting = [(0 : Fin S2048x13.rank)] := rfl
  have hnr : dot_S2048x13_S13x65536_S2048x65536_1_0_0_1_n_n.rhsNonContracting = [(1 : Fin S13x65536.rank)] := rfl
  have hbl : dot_S2048x13_S13x65536_S2048x65536_1_0_0_1_n_n.lhsBatch = [] := rfl
  have hbr : dot_S2048x13_S13x65536_S2048x65536_1_0_0_1_n_n.rhsBatch = [] := rfl
  have hsz : S2048x13.size (1 : Fin S2048x13.rank) = 13 := rfl
  -- the contraction's positions are the thirteen coordinates
  rw [Cert.Lib.Contraction.sum_contr _ hcl 13 hsz]
  refine Finset.sum_congr rfl fun i _ => ?_
  -- the left operand's index at position i is (b, i)
  have hL : dot_S2048x13_S13x65536_S2048x65536_1_0_0_1_n_n.lhsIdx (ix2 b m)
      ((Cert.Lib.Contraction.contrFin dot_S2048x13_S13x65536_S2048x65536_1_0_0_1_n_n hcl 13 hsz).symm i) = ix2 b i := by
    funext a
    match a with
    | ⟨0, _⟩ => exact Fin.ext (Cert.Lib.Contraction.lhs_free _ hbl hnl (ix2 b m) _ (by decide))
    | ⟨1, _⟩ => exact Fin.ext (Cert.Lib.Contraction.lhs_contracted _ hcl 13 hsz (ix2 b m) i)
  -- the right operand's index there is (i, m), where the transpose reads w at (m, i)
  have hRt : transpose S13x65536 [1, 0] w transposes_S65536x13_S13x65536_1_0
      (dot_S2048x13_S13x65536_S2048x65536_1_0_0_1_n_n.rhsIdx (ix2 b m)
        ((Cert.Lib.Contraction.contrFin dot_S2048x13_S13x65536_S2048x65536_1_0_0_1_n_n hcl 13 hsz).symm i)) = w (ix2 m i) := by
    refine transpose_apply [1, 0] w transposes_S65536x13_S13x65536_1_0 _ (ix2 m i) ?_
    intro c
    match c with
    | ⟨0, _⟩ => exact (Cert.Lib.Contraction.rhs_contracted _ hcl hcr 13 hsz (ix2 b m) i).symm
    | ⟨1, _⟩ => exact (Cert.Lib.Contraction.rhs_free _ hbl hbr hnl hnr (ix2 b m) _ (by decide)).symm
  rw [hL, hRt]

/-- Entry b of the row maxima: the maximum is commutative and associative, so the reduction over the second axis is the
    fold of max over that axis's 65536 coordinates, from the initial constant, which is minus infinity. -/
theorem rowMax_apply (s : FVec Ideal S2048x65536 .f32) (b : Fin 2048) :
    Host.reduce FloatOps.maximumf s (constant S_ .f32 0xFF800000#32) reducesTo_S2048x65536_S2048_d1 h_S_ (ix1 b)
      = (Finset.univ : Finset (Fin 65536)).fold max ⊥ fun m => s (ix2 b m) := by
  have hR : S2048x65536.Reduces [1] S2048 := by decide
  rw [Host.reduce_eq_fold_single FloatOps.maximumf s _ reducesTo_S2048x65536_S2048_d1 hR h_S_ (ix1 b)]
  rw [constant_apply, ofBits_negInf_f32]
  -- row index b with coordinate m put back on the reduced axis is (b, m)
  have hf : (s ∘ hR.lift (ix1 b)) = fun m : Fin 65536 => s (ix2 b m) := funext fun m => congrArg s (by
      funext c
      match c with
      | ⟨0, _⟩ => exact Fin.ext rfl
      | ⟨1, _⟩ => exact Fin.ext rfl)
  refine Eq.trans (congrArg (fun f => Finset.fold FloatOps.maximumf ⊥ f Finset.univ) hf) ?_
  rfl

end Cert.ReferenceIdeal.RefValue

end
-- ==== Proof.KernelFold.lean ====
/-
  The kernel's result, entry by entry.

  The 64 points of one run share an output block of 1024 lanes. At the run's first point the block is set to a finite
  floor and then raised to the largest score of each value row against the point's 1024 memory rows; every later point
  raises it again. So after the run, lane `ℓ` of the block holds the maximum of the floor and of all 65536 scores of its
  value row. No score is below the floor (a normalised row lies in [-1, 1] coordinate by coordinate), so the floor drops
  out and the entry is the maximum over all memory rows taken from minus infinity: `Spec.best`.
-/
import proofs.«130421_j65335042507035_1_alg».proof.Proof.KernelBlocks
import proofs.«130421_j65335042507035_1_alg».proof.Proof.KernelLayers
import proofs.«130421_j65335042507035_1_alg».proof.Proof.KernelScore
import proofs.«130421_j65335042507035_1_alg».proof.Proof.Bound
import proofs.«130421_j65335042507035_1_alg».proof.Proof.RefScore
import Mathlib.Data.Finset.Fold

noncomputable section

open scoped BigOperators

namespace Cert.KernelIdeal.KFold

open Cert.KernelIdeal Cert.KernelIdeal.Gen Cert.KernelIdeal.Value Cert.KernelIdeal.KBlocks Cert.KernelIdeal.Payload
  Idealize.ShloMosaic Idealize.ShloMosaic.TcCoe Idealize.SL.Sem Idealize.ShloMosaic.ValueIdx Cert.Spec

variable (m : (ℓ : Loc nD τ sig) → Buf (Elt Ideal) ℓ)

/-! ## One point's body at one lane -/

/-- The body at lane `ℓ`: what the block held, raised to the largest score of value row `ℓ` of the point's block against
    the point's memory rows, each passed through the four layers and normalised. -/
theorem pay2_apply (x0 : Vec Ideal S1024x13 .bf16) (x1 : Vec Ideal S1024x13 .f32) (x2 : Vec Ideal S13x300 .bf16)
    (x3 : Vec Ideal S300 .f32) (x4 : Vec Ideal S300x600 .bf16) (x5 : Vec Ideal S600 .f32) (x6 : Vec Ideal S600x100 .bf16)
    (x7 : Vec Ideal S100 .f32) (x8 : Vec Ideal S100x13 .bf16) (x9 : Vec Ideal S13 .f32) (acc : Vec Ideal S1024 .f32)
    (ℓ : Fin 1024) :
    k0_pay2 (k0_pay3 x1 x2 x3 x4 x5 x6 x7) (k0_pay4 x8) (constant S1024x13 .f32 0x00000000#32) x9 x0 acc (ix1 ℓ)
      = max (acc (ix1 ℓ)) ((Finset.univ : Finset (Fin 1024)).fold max ⊥ fun q =>
          score (fun d => x0 (ix2 ℓ d)) (unit (net x2 x3 x4 x5 x6 x7 x8 x9 fun k => x1 (ix2 q k)))) := by
  rw [pay2_apply_of]
  have h3 : ∀ q : Fin 1024, (fun j : Fin 100 => k0_pay3 x1 x2 x3 x4 x5 x6 x7 (ix2 q j))
      = net3 x2 x3 x4 x5 x6 x7 (fun k => x1 (ix2 q k)) := fun q => funext fun j => pay3_apply x1 x2 x3 x4 x5 x6 x7 q j
  simp only [h3]
  rfl

/-- The largest score of lane `ℓ`'s value row against the memory rows of point `t`. -/
def tile (c : Dev nD) (t : Fin cfg0.N) (ℓ : Fin 1024) : EReal :=
  (Finset.univ : Finset (Fin 1024)).fold max ⊥ fun q =>
    score (fun d => valBlk m c t (ix2 ℓ d))
      (unit (net (w1Blk m c t) (b1Blk m c t) (w2Blk m c t) (b2Blk m c t) (w3Blk m c t) (b3Blk m c t) (w4Blk m c t)
        (b4Blk m c t) fun k => memBlk m c t (ix2 q k)))

/-- A run's first point: the floor, raised to the point's largest score. -/
theorem reset_apply (c : Dev nD) (t : Fin cfg0.N) (ℓ : Fin 1024) :
    reset10 m c t.val t.isLt (ix1 ℓ) = max floorInit (tile m c t ℓ) := by
  have h := pay2_apply (valBlk m c t) (memBlk m c t) (w1Blk m c t) (b1Blk m c t) (w2Blk m c t) (b2Blk m c t)
    (w3Blk m c t) (b3Blk m c t) (w4Blk m c t) (b4Blk m c t) (k0_pay1 (F := Ideal)) ℓ
  rw [pay1_apply] at h
  exact h

/-- A later point: what the block held, raised to the point's largest score. -/
theorem step_apply (c : Dev nD) (t : Fin cfg0.N) (acc : Vec Ideal S1024 .f32) (ℓ : Fin 1024) :
    step10 m c t.val t.isLt acc (ix1 ℓ) = max (acc (ix1 ℓ)) (tile m c t ℓ) :=
  pay2_apply (valBlk m c t) (memBlk m c t) (w1Blk m c t) (b1Blk m c t) (w2Blk m c t) (b2Blk m c t)
    (w3Blk m c t) (b3Blk m c t) (w4Blk m c t) (b4Blk m c t) acc ℓ

/-! ## The scores in terms of the arguments -/

/-- The values as the region finds them, read at one entry: the value row normalised. -/
theorem valRows_apply (c : Dev nD) (b : Fin 2048) (d : Fin 13) :
    V m c main_v13 (ix2 b d) = unit (fun k => m ((c : Thread nD τ).loc main_arg1) (ix2 b k)) d := by
  rw [V_v13]
  exact Cert.ReferenceIdeal.RefValue.unitVals_apply (m ((c : Thread nD τ).loc main_arg1)) b d

/-- The score of value row `b` against memory row `mm`, in the program's arguments. -/
def sc (c : Dev nD) (b : Fin 2048) (mm : Fin 65536) : EReal :=
  score (unit fun d => m ((c : Thread nD τ).loc main_arg1) (ix2 b d))
    (unit (net (tr (m ((c : Thread nD τ).loc main_arg2))) (m ((c : Thread nD τ).loc main_arg3))
      (tr (m ((c : Thread nD τ).loc main_arg4))) (m ((c : Thread nD τ).loc main_arg5))
      (tr (m ((c : Thread nD τ).loc main_arg6))) (m ((c : Thread nD τ).loc main_arg7))
      (tr (m ((c : Thread nD τ).loc main_arg8))) (m ((c : Thread nD τ).loc main_arg9))
      fun k => m ((c : Thread nD τ).loc main_arg0) (ix2 mm k)))

/-- One term of a point's maximum is the score of the rows it names. -/
theorem tile_term (c : Dev nD) (t : Fin cfg0.N) (ℓ q : Fin 1024) (b : Fin 2048) (mm : Fin 65536)
    (hb : b.val = 1024 * (t.val / 64) + ℓ.val) (hm : mm.val = 1024 * (t.val % 64) + q.val) :
    score (fun d => valBlk m c t (ix2 ℓ d))
      (unit (net (w1Blk m c t) (b1Blk m c t) (w2Blk m c t) (b2Blk m c t) (w3Blk m c t) (b3Blk m c t) (w4Blk m c t)
        (b4Blk m c t) fun k => memBlk m c t (ix2 q k))) = sc m c b mm := by
  have hv : (fun d => valBlk m c t (ix2 ℓ d)) = unit fun d => m ((c : Thread nD τ).loc main_arg1) (ix2 b d) :=
    funext fun d => (valBlk_apply m c t ℓ d b hb).trans (valRows_apply m c b d)
  have hx : (fun k => memBlk m c t (ix2 q k)) = fun k => m ((c : Thread nD τ).loc main_arg0) (ix2 mm k) :=
    funext fun k => memBlk_apply m c t q k mm hm
  rw [hv, hx, w1Blk_eq, b1Blk_eq, w2Blk_eq, b2Blk_eq, w3Blk_eq, b3Blk_eq, w4Blk_eq, b4Blk_eq]
  rfl

/-! ## The run's maximum -/

/-- A point's largest score is at most `z` exactly when the scores against its 1024 memory rows are. -/
theorem tile_le (c : Dev nD) (t : Fin cfg0.N) (ℓ : Fin 1024) (b : Fin 2048)
    (hb : b.val = 1024 * (t.val / 64) + ℓ.val) (z : EReal) :
    tile m c t ℓ ≤ z ↔ ∀ mm : Fin 65536, 1024 * (t.val % 64) ≤ mm.val → mm.val < 1024 * (t.val % 64) + 1024 →
      sc m c b mm ≤ z := by
  unfold tile
  rw [Finset.fold_max_le]
  have ht : t.val % 64 < 64 := Nat.mod_lt _ (by decide)
  constructor
  · rintro ⟨-, h⟩ mm h1 h2
    have hq := h ⟨mm.val - 1024 * (t.val % 64), by omega⟩ (Finset.mem_univ _)
    rwa [tile_term m c t ℓ _ b mm hb
      (by show mm.val = 1024 * (t.val % 64) + (mm.val - 1024 * (t.val % 64)); omega)] at hq
  · intro h
    refine ⟨bot_le, fun q _ => ?_⟩
    have hq := q.isLt
    rw [tile_term m c t ℓ q b ⟨1024 * (t.val % 64) + q.val, by omega⟩ hb rfl]
    exact h _ (by show 1024 * (t.val % 64) ≤ 1024 * (t.val % 64) + q.val; omega)
      (by show 1024 * (t.val % 64) + q.val < 1024 * (t.val % 64) + 1024; omega)

/-- After `j + 1` points of run `q`, lane `ℓ` is at most `z` exactly when the floor and the scores of its value row
    against the first `1024·(j + 1)` memory rows are. -/
theorem acc_le (c : Dev nD) (q : Nat) (ℓ : Fin 1024) (b : Fin 2048) (hb : b.val = 1024 * q + ℓ.val) (z : EReal) :
    ∀ (j : Nat), j < 64 → ∀ (h : 64 * q + j < cfg0.N),
      Pipeline.accAt (reset10 m c) (step10 m c) (64 * q) j h (ix1 ℓ) ≤ z
        ↔ floorInit ≤ z ∧ ∀ mm : Fin 65536, mm.val < 1024 * (j + 1) → sc m c b mm ≤ z := by
  intro j
  induction j with
  | zero =>
    intro _ h
    rw [Pipeline.accAt_zero, reset_apply m c ⟨64 * q, h⟩ ℓ, max_le_iff,
      tile_le m c ⟨64 * q, h⟩ ℓ b (by show b.val = 1024 * (64 * q / 64) + ℓ.val; omega) z]
    refine and_congr_right fun _ => ⟨fun H mm hm => H mm (by show 1024 * (64 * q % 64) ≤ mm.val; omega)
      (by show mm.val < 1024 * (64 * q % 64) + 1024; omega), fun H mm h1 h2 => H mm ?_⟩
    have h2' : mm.val < 1024 * (64 * q % 64) + 1024 := h2
    omega
  | succ j ih =>
    intro hj h
    rw [Pipeline.accAt_succ, step_apply m c ⟨64 * q + (j + 1), h⟩ _ ℓ, max_le_iff,
      ih (by omega) (Nat.lt_of_succ_lt h),
      tile_le m c ⟨64 * q + (j + 1), h⟩ ℓ b (by show b.val = 1024 * ((64 * q + (j + 1)) / 64) + ℓ.val; omega) z]
    constructor
    · rintro ⟨⟨hf, H1⟩, H2⟩
      refine ⟨hf, fun mm hm => ?_⟩
      by_cases hlt : mm.val < 1024 * (j + 1)
      · exact H1 mm hlt
      · exact H2 mm (by show 1024 * ((64 * q + (j + 1)) % 64) ≤ mm.val; omega)
          (by show mm.val < 1024 * ((64 * q + (j + 1)) % 64) + 1024; omega)
    · rintro ⟨hf, H⟩
      refine ⟨⟨hf, fun mm hm => H mm (by omega)⟩, fun mm h1 h2 => H mm ?_⟩
      have h2' : mm.val < 1024 * ((64 * q + (j + 1)) % 64) + 1024 := h2
      omega

/-! ## The result -/

/-- Each entry of the kernel's result is the largest score of its value row over all memory rows, from minus infinity. -/
theorem G10_apply (c : Dev nD) (b : Fin 2048) :
    G10 m c (ix1 b) = best (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9)) b := by
  have hb := b.isLt
  have hN : cfg0.N = 128 := N_0
  have hrun : 64 * run10Of (ix1 b) + 63 < cfg0.N := by
    show 64 * (1 * (b.val / 1024 - 0)) + 63 < cfg0.N
    rw [hN]; omega
  have hrun' : 64 * (b.val / 1024) + 63 < cfg0.N := by rw [hN]; omega
  unfold G10
  rw [dif_pos hrun]
  have hloc : loc10Of (ix1 b) = ix1 (⟨b.val % 1024, Nat.mod_lt _ (by decide)⟩ : Fin 1024) := by
    funext a
    match a with
    | ⟨0, _⟩ => rfl
  rw [hloc]
  have e : ∀ (B B' : Nat) (h : B + 63 < cfg0.N) (h' : B' + 63 < cfg0.N), B = B' →
      Pipeline.accAt (reset10 m c) (step10 m c) B 63 h = Pipeline.accAt (reset10 m c) (step10 m c) B' 63 h' := by
    intro B B' h h' hB; subst hB; rfl
  rw [e _ (64 * (b.val / 1024)) hrun hrun' (by show 64 * (1 * (b.val / 1024 - 0)) = _; omega)]
  refine eq_of_forall_ge_iff (α := EReal) fun z => ?_
  rw [acc_le m c (b.val / 1024) _ b (by show b.val = 1024 * (b.val / 1024) + b.val % 1024; omega) z 63 (by decide) hrun']
  unfold best
  rw [Finset.fold_max_le]
  constructor
  · rintro ⟨-, H⟩
    exact ⟨bot_le, fun mm _ => H mm (by have := mm.isLt; omega)⟩
  · rintro ⟨-, H⟩
    refine ⟨?_, fun mm _ => H mm (Finset.mem_univ _)⟩
    exact (floorInit_le_score_unit _ _).trans (H (⟨0, by decide⟩ : Fin 65536) (Finset.mem_univ _))

end Cert.KernelIdeal.KFold

end
-- ==== Proof.RefRun.lean ====
/-
  The reference program's run: its operations in order, the outlined functions' operations at their call sites, and the
  result buffer after them as the term of `RefTerm.refOut` of the ten arguments.
-/
import proofs.«130421_j65335042507035_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: its own thirty-nine and the thirty of its six calls. `relu` is
    three (the scalar zero, its broadcast, the maximum) into `main_call0`'s buffers; `leaky_relu` is seven into
    `main_call1`'s (the scalar zero, its broadcast, the comparison, the slope converted to its own type, its broadcast,
    the product, then `_where`'s select into `main_call1.call0`'s); `relu_0` three into `main_call2`'s;
    `leaky_relu_1` seven into `main_call3`'s; `norm` five into `main_call4`'s (the square, the scalar zero, the
    row sums, their broadcast, the square root); `norm_3` five into `main_call5`'s. -/
abbrev ops : List (HloOp τ sig (Elt F)) :=
  [ unary main_arg2 main_v0 ((transpose S13x300 [1, 0] · transposes_S300x13_S13x300_1_0) : (⟨S300x13, .f32⟩ : BufTy).Contents (Elt F) → (⟨S13x300, .f32⟩ : BufTy).Contents (Elt F)),
    binary main_arg0 main_v0 main_v1 ((fun l r => Host.dotGeneral dot_S65536x13_S13x300_S65536x300_1_0_0_1_n_n none l r) : (⟨S65536x13, .f32⟩ : BufTy).Contents (Elt F) → (⟨S13x300, .f32⟩ : BufTy).Contents (Elt F) → (⟨S65536x300, .f32⟩ : BufTy).Contents (Elt F)),
    unary main_arg3 main_v2 (broadcastInDim S1x300 ![1] bcast_S300_S1x300_1 : (⟨S300, .f32⟩ : BufTy).Contents (Elt F) → (⟨S1x300, .f32⟩ : BufTy).Contents (Elt F)),
    unary main_v2 main_v3 (broadcastInDim S65536x300 ![0, 1] bcast_S1x300_S65536x300_0_1 : (⟨S1x300, .f32⟩ : BufTy).Contents (Elt F) → (⟨S65536x300, .f32⟩ : BufTy).Contents (Elt F)),
    binary main_v1 main_v3 main_v4 (addf : (⟨S65536x300, .f32⟩ : BufTy).Contents (Elt F) → (⟨S65536x300, .f32⟩ : BufTy).Contents (Elt F) → (⟨S65536x300, .f32⟩ : BufTy).Contents (Elt F)),
    TRef.nullary main_call0.cst (constant S_ .f32 0x00000000#32),
    TRef.unary main_call0.cst main_call0.v0 (broadcastInDim S65536x300 ![] bcast_S_S65536x300),
    TRef.binary (.of main_v4) main_call0.v0 main_call0.v1 maximumf,
    unary main_arg4 main_v6 ((transpose S300x600 [1, 0] · transposes_S600x300_S300x600_1_0) : (⟨S600x300, .f32⟩ : BufTy).Contents (Elt F) → (⟨S300x600, .f32⟩ : BufTy).Contents (Elt F)),
    binary main_v5 main_v6 main_v7 ((fun l r => Host.dotGeneral dot_S65536x300_S300x600_S65536x600_1_0_0_1_n_n none l r) : (⟨S65536x300, .f32⟩ : BufTy).Contents (Elt F) → (⟨S300x600, .f32⟩ : BufTy).Contents (Elt F) → (⟨S65536x600, .f32⟩ : BufTy).Contents (Elt F)),
    unary main_arg5 main_v8 (broadcastInDim S1x600 ![1] bcast_S600_S1x600_1 : (⟨S600, .f32⟩ : BufTy).Contents (Elt F) → (⟨S1x600, .f32⟩ : BufTy).Contents (Elt F)),
    unary main_v8 main_v9 (broadcastInDim S65536x600 ![0, 1] bcast_S1x600_S65536x600_0_1 : (⟨S1x600, .f32⟩ : BufTy).Contents (Elt F) → (⟨S65536x600, .f32⟩ : BufTy).Contents (Elt F)),
    binary main_v7 main_v9 main_v10 (addf : (⟨S65536x600, .f32⟩ : BufTy).Contents (Elt F) → (⟨S65536x600, .f32⟩ : BufTy).Contents (Elt F) → (⟨S65536x600, .f32⟩ : BufTy).Contents (Elt F)),
    nullary main_cst (constant S_ .f32 0x3C23D70A#32),
    TRef.nullary main_call1.cst (constant S_ .f32 0x00000000#32),
    TRef.unary main_call1.cst main_call1.v0 (broadcastInDim S65536x600 ![] bcast_S_S65536x600),
    TRef.binary (.of main_v10) main_call1.v0 main_call1.v1 (cmpf .oge),
    TRef.unary (.of main_cst) main_call1.v2 id,
    TRef.unary main_call1.v2 main_call1.v3 (broadcastInDim S65536x600 ![] bcast_S_S65536x600),
    TRef.binary main_call1.v3 (.of main_v10) main_call1.v4 mulf,
    TRef.ternary main_call1.v1 (.of main_v10) main_call1.v4 main_call1.call0.v0 select,
    unary main_arg6 main_v12 ((transpose S600x100 [1, 0] · transposes_S100x600_S600x100_1_0) : (⟨S100x600, .f32⟩ : BufTy).Contents (Elt F) → (⟨S600x100, .f32⟩ : BufTy).Contents (Elt F)),
    binary main_v11 main_v12 main_v13 ((fun l r => Host.dotGeneral dot_S65536x600_S600x100_S65536x100_1_0_0_1_n_n none l r) : (⟨S65536x600, .f32⟩ : BufTy).Contents (Elt F) → (⟨S600x100, .f32⟩ : BufTy).Contents (Elt F) → (⟨S65536x100, .f32⟩ : BufTy).Contents (Elt F)),
    unary main_arg7 main_v14 (broadcastInDim S1x100 ![1] bcast_S100_S1x100_1 : (⟨S100, .f32⟩ : BufTy).Contents (Elt F) → (⟨S1x100, .f32⟩ : BufTy).Contents (Elt F)),
    unary main_v14 main_v15 (broadcastInDim S65536x100 ![0, 1] bcast_S1x100_S65536x100_0_1 : (⟨S1x100, .f32⟩ : BufTy).Contents (Elt F) → (⟨S65536x100, .f32⟩ : BufTy).Contents (Elt F)),
    binary main_v13 main_v15 main_v16 (addf : (⟨S65536x100, .f32⟩ : BufTy).Contents (Elt F) → (⟨S65536x100, .f32⟩ : BufTy).Contents (Elt F) → (⟨S65536x100, .f32⟩ : BufTy).Contents (Elt F)),
    TRef.nullary main_call2.cst (constant S_ .f32 0x00000000#32),
    TRef.unary main_call2.cst main_call2.v0 (broadcastInDim S65536x100 ![] bcast_S_S65536x100),
    TRef.binary (.of main_v16) main_call2.v0 main_call2.v1 maximumf,
    unary main_arg8 main_v18 ((transpose S100x13 [1, 0] · transposes_S13x100_S100x13_1_0) : (⟨S13x100, .f32⟩ : BufTy).Contents (Elt F) → (⟨S100x13, .f32⟩ : BufTy).Contents (Elt F)),
    binary main_v17 main_v18 main_v19 ((fun l r => Host.dotGeneral dot_S65536x100_S100x13_S65536x13_1_0_0_1_n_n none l r) : (⟨S65536x100, .f32⟩ : BufTy).Contents (Elt F) → (⟨S100x13, .f32⟩ : BufTy).Contents (Elt F) → (⟨S65536x13, .f32⟩ : BufTy).Contents (Elt F)),
    unary main_arg9 main_v20 (broadcastInDim S1x13 ![1] bcast_S13_S1x13_1 : (⟨S13, .f32⟩ : BufTy).Contents (Elt F) → (⟨S1x13, .f32⟩ : BufTy).Contents (Elt F)),
    unary main_v20 main_v21 (broadcastInDim S65536x13 ![0, 1] bcast_S1x13_S65536x13_0_1 : (⟨S1x13, .f32⟩ : BufTy).Contents (Elt F) → (⟨S65536x13, .f32⟩ : BufTy).Contents (Elt F)),
    binary main_v19 main_v21 main_v22 (addf : (⟨S65536x13, .f32⟩ : BufTy).Contents (Elt F) → (⟨S65536x13, .f32⟩ : BufTy).Contents (Elt F) → (⟨S65536x13, .f32⟩ : BufTy).Contents (Elt F)),
    nullary main_cst_0 (constant S_ .f32 0x3C23D70A#32),
    TRef.nullary main_call3.cst (constant S_ .f32 0x00000000#32),
    TRef.unary main_call3.cst main_call3.v0 (broadcastInDim S65536x13 ![] bcast_S_S65536x13),
    TRef.binary (.of main_v22) main_call3.v0 main_call3.v1 (cmpf .oge),
    TRef.unary (.of main_cst_0) main_call3.v2 id,
    TRef.unary main_call3.v2 main_call3.v3 (broadcastInDim S65536x13 ![] bcast_S_S65536x13),
    TRef.binary main_call3.v3 (.of main_v22) main_call3.v4 mulf,
    TRef.ternary main_call3.v1 (.of main_v22) main_call3.v4 main_call3.call0.v0 select,
    TRef.binary (.of main_v23) (.of main_v23) main_call4.v0 mulf,
    TRef.nullary main_call4.cst (constant S_ .f32 0x00000000#32),
    TRef.binary main_call4.v0 main_call4.cst main_call4.v1 (fun x v => Host.reduceAdd x v reducesTo_S65536x13_S65536_d1 h_S_),
    TRef.unary main_call4.v1 main_call4.v2 (broadcastInDim S65536x1 ![0] bcast_S65536_S65536x1_0),
    TRef.unary main_call4.v2 main_call4.v3 Host.sqrt,
    nullary main_cst_1 (constant S_ .f32 0x322BCC77#32),
    unary main_cst_1 main_v25 (broadcastInDim S65536x1 ![] bcast_S_S65536x1 : (⟨S_, .f32⟩ : BufTy).Contents (Elt F) → (⟨S65536x1, .f32⟩ : BufTy).Contents (Elt F)),
    binary main_v24 main_v25 main_v26 (maximumf : (⟨S65536x1, .f32⟩ : BufTy).Contents (Elt F) → (⟨S65536x1, .f32⟩ : BufTy).Contents (Elt F) → (⟨S65536x1, .f32⟩ : BufTy).Contents (Elt F)),
    unary main_v26 main_v27 (broadcastInDim S65536x13 ![0, 1] bcast_S65536x1_S65536x13_0_1 : (⟨S65536x1, .f32⟩ : BufTy).Contents (Elt F) → (⟨S65536x13, .f32⟩ : BufTy).Contents (Elt F)),
    binary main_v23 main_v27 main_v28 (Host.divf : (⟨S65536x13, .f32⟩ : BufTy).Contents (Elt F) → (⟨S65536x13, .f32⟩ : BufTy).Contents (Elt F) → (⟨S65536x13, .f32⟩ : BufTy).Contents (Elt F)),
    TRef.binary (.of main_arg1) (.of main_arg1) main_call5.v0 mulf,
    TRef.nullary main_call5.cst (constant S_ .f32 0x00000000#32),
    TRef.binary main_call5.v0 main_call5.cst main_call5.v1 (fun x v => Host.reduceAdd x v reducesTo_S2048x13_S2048_d1 h_S_),
    TRef.unary main_call5.v1 main_call5.v2 (broadcastInDim S2048x1 ![0] bcast_S2048_S2048x1_0),
    TRef.unary main_call5.v2 main_call5.v3 Host.sqrt,
    nullary main_cst_2 (constant S_ .f32 0x322BCC77#32),
    unary main_cst_2 main_v30 (broadcastInDim S2048x1 ![] bcast_S_S2048x1 : (⟨S_, .f32⟩ : BufTy).Contents (Elt F) → (⟨S2048x1, .f32⟩ : BufTy).Contents (Elt F)),
    binary main_v29 main_v30 main_v31 (maximumf : (⟨S2048x1, .f32⟩ : BufTy).Contents (Elt F) → (⟨S2048x1, .f32⟩ : BufTy).Contents (Elt F) → (⟨S2048x1, .f32⟩ : BufTy).Contents (Elt F)),
    unary main_v31 main_v32 (broadcastInDim S2048x13 ![0, 1] bcast_S2048x1_S2048x13_0_1 : (⟨S2048x1, .f32⟩ : BufTy).Contents (Elt F) → (⟨S2048x13, .f32⟩ : BufTy).Contents (Elt F)),
    binary main_arg1 main_v32 main_v33 (Host.divf : (⟨S2048x13, .f32⟩ : BufTy).Contents (Elt F) → (⟨S2048x13, .f32⟩ : BufTy).Contents (Elt F) → (⟨S2048x13, .f32⟩ : BufTy).Contents (Elt F)),
    unary main_v28 main_v34 ((transpose S13x65536 [1, 0] · transposes_S65536x13_S13x65536_1_0) : (⟨S65536x13, .f32⟩ : BufTy).Contents (Elt F) → (⟨S13x65536, .f32⟩ : BufTy).Contents (Elt F)),
    binary main_v33 main_v34 main_v35 ((fun l r => Host.dotGeneral dot_S2048x13_S13x65536_S2048x65536_1_0_0_1_n_n none l r) : (⟨S2048x13, .f32⟩ : BufTy).Contents (Elt F) → (⟨S13x65536, .f32⟩ : BufTy).Contents (Elt F) → (⟨S2048x65536, .f32⟩ : BufTy).Contents (Elt F)),
    nullary main_cst_3 (constant S_ .f32 0x41B80000#32),
    unary main_cst_3 main_v36 (broadcastInDim S2048x65536 ![] bcast_S_S2048x65536 : (⟨S_, .f32⟩ : BufTy).Contents (Elt F) → (⟨S2048x65536, .f32⟩ : BufTy).Contents (Elt F)),
    binary main_v35 main_v36 main_v37 (mulf : (⟨S2048x65536, .f32⟩ : BufTy).Contents (Elt F) → (⟨S2048x65536, .f32⟩ : BufTy).Contents (Elt F) → (⟨S2048x65536, .f32⟩ : BufTy).Contents (Elt F)),
    nullary main_cst_4 (constant S_ .f32 0xFF800000#32),
    binary main_v37 main_cst_4 main_v38 ((fun x v => Host.reduce FloatOps.maximumf x v reducesTo_S2048x65536_S2048_d1 h_S_) : (⟨S2048x65536, .f32⟩ : BufTy).Contents (Elt F) → (⟨S_, .f32⟩ : BufTy).Contents (Elt F) → (⟨S2048, .f32⟩ : BufTy).Contents (Elt F)) ]

-- the chain is sixty-nine statements deep
set_option maxRecDepth 4096 in
set_option maxHeartbeats 2000000 in
/-- @main is that straight line: the functions' definitions unfolded at their calls and the records at their fields,
    both sides are one chain of steps once sequencing is reassociated. -/
theorem main_eq (c : Dev nD) : main (F := F) c = seq ops := by
  simp only [main, fn_relu.body, fn_where.body, fn_leaky_relu.body, fn_relu_0.body, fn_where_2.body, fn_leaky_relu_1.body, fn_norm.body, fn_norm_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., binary_bufs_sub ..⟩

attribute [local irreducible] Host.reduce Host.reduceAdd in
set_option maxRecDepth 8192 in
set_option maxHeartbeats 1000000 in
/-- The fold at the result buffer is `RefTerm.refOut` of the arguments by computation: the fold unrolled, each
    operation's result decides whether the buffer read is the one it writes, and the typed references' casts are the
    identity at these literal references. The reductions are kept folded meanwhile: the equation never looks inside
    them. -/
theorem out_eq (V : Valuation τ sig (Elt F)) :
    after ops V (main_v38 : DevRef τ sig)
      = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

/-- No operation writes the first argument's buffer (nor, below, any other argument's): after the line it holds what
    it held. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = RefTerm.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v38).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.RefLayers.lean ====
/-
  The reference's four layers, read at one entry: memory row `m`, output `d`.
-/
import proofs.«130421_j65335042507035_1_alg».proof.Proof.RefTerm
import proofs.«130421_j65335042507035_1_alg».proof.Proof.Spec
import proofs.«130421_j65335042507035_1_alg».proof.Proof.LibContraction
import Idealize.ShloMosaic.Lib.Pipeline.Value
import Idealize.ShloMosaic.Lib.ValueLayout

noncomputable section

open scoped BigOperators

namespace Cert.ReferenceIdeal.RefValue

open Cert.ReferenceIdeal Cert.ReferenceIdeal.Gen Cert.ReferenceIdeal.RefTerm Idealize.ShloMosaic Idealize.ShloMosaic.ValueIdx Cert.Spec

namespace Layers

/-! ## The four kinds of operation a layer is made of, each read at one entry -/

section Generic
open Cert.Lib.Contraction

/-- A matrix product with no batch axis, the left operand contracted on its columns and the right on its rows, read at
    entry (m, j): the sum over the shared extent of the row's entries times the column's. -/
theorem dot_apply {M n p : Nat} (D : DotDims ⟨2, ![M, n]⟩ ⟨2, ![n, p]⟩ ⟨2, ![M, p]⟩)
    (hlc : D.lhsContracting = [1]) (hrc : D.rhsContracting = [0])
    (hln : D.lhsNonContracting = [0]) (hrn : D.rhsNonContracting = [1])
    (hlb : D.lhsBatch = []) (hrb : D.rhsBatch = [])
    (x : FVec Ideal ⟨2, ![M, n]⟩ .f32) (y : FVec Ideal ⟨2, ![n, p]⟩ .f32) (m : Fin M) (j : Fin p) :
    FloatOps.dotGeneral D none .single x y (ix2 m j) = ∑ k : Fin n, x (ix2 m k) * y (ix2 k j) := by
  rw [Ideal.dotGeneral_apply, sum_contr D hlc n rfl]
  refine Finset.sum_congr rfl fun i _ => ?_
  have hl : D.lhsIdx (ix2 m j) ((contrFin D hlc n rfl).symm i) = ix2 m i := by
    funext a
    match a with
    | ⟨0, _⟩ => exact Fin.ext (lhs_free D hlb hln (ix2 m j) _ Nat.zero_lt_two)
    | ⟨1, _⟩ => exact Fin.ext (lhs_contracted D hlc n rfl (ix2 m j) i)
  have hr : D.rhsIdx (ix2 m j) ((contrFin D hlc n rfl).symm i) = ix2 i j := by
    funext a
    match a with
    | ⟨0, _⟩ => exact Fin.ext (rhs_contracted D hlc hrc n rfl (ix2 m j) i)
    | ⟨1, _⟩ => exact Fin.ext (rhs_free D hlb hrb hln hrn (ix2 m j) _ Nat.one_lt_two)
  rw [hl, hr]

/-- A vector made a one-row matrix and that row copied down every row reads, at entry (m, j), the vector's entry j. -/
theorem bias_apply {α : Type} {M p : Nat}
    (h1 : (⟨1, ![p]⟩ : Shape).BroadcastsInDim ⟨2, ![1, p]⟩ ![1])
    (h2 : (⟨2, ![1, p]⟩ : Shape).BroadcastsInDim ⟨2, ![M, p]⟩ ![0, 1])
    (b : (⟨1, ![p]⟩ : Shape).Idx → α) (m : Fin M) (j : Fin p) :
    broadcastInDim ⟨2, ![M, p]⟩ ![0, 1] h2 (broadcastInDim ⟨2, ![1, p]⟩ ![1] h1 b) (ix2 m j) = b (ix1 j) := by
  have hj : j.val = if p = 1 then 0 else j.val := by
    split_ifs with hp
    · have := j.isLt; omega
    · rfl
  refine (broadcastInDim_apply _ h2 _ (ix2 m j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- A scalar constant copied to every entry reads that constant. -/
theorem splat_apply {T : Shape} (h : (⟨0, ![]⟩ : Shape).BroadcastsInDim T ![]) (c : BitVec 32) (j : T.Idx) :
    broadcastInDim T ![] h (constant (F := Ideal) ⟨0, ![]⟩ .f32 c) j = Ideal.ofBits .f32 c := rfl

/-- The rectifier as the reference spells it, "z where 0 ≤ z, slope · z elsewhere", is the one of the specification,
    "z where 0 < z, z · slope elsewhere": the two differ only in which branch takes z = 0, and both give 0 there. -/
theorem leaky_eq (z : EReal) : Scalar.select (Ideal.cmp .oge z 0) z (slope * z) = leaky z := by
  unfold leaky
  rcases lt_trichotomy 0 z with h | h | h
  · have hc : Ideal.cmp .oge z 0 = 1#1 := by
      unfold Ideal.cmp; simp [h.le]
    rw [hc, select_one, if_pos h]
  · subst h
    have hc : Ideal.cmp .oge (0 : EReal) 0 = 1#1 := by
      unfold Ideal.cmp; simp
    rw [hc, select_one, if_neg (lt_irrefl _), zero_mul]
  · have hc : Ideal.cmp .oge z 0 = 0#1 := by
      unfold Ideal.cmp; simp [not_le.mpr h]
    rw [hc, select_zero, if_neg (not_lt.mpr h.le), mul_comm]

end Generic

/-! ## An affine map and the two rectifiers, at any sizes -/

section Stage

/-- Rows times the transposed weights, plus the bias copied down the rows, read at entry (m, j): the specification's
    affine map of row m, at output j, over the weights read transposed. -/
theorem affine_apply {M n p : Nat} (D : DotDims ⟨2, ![M, n]⟩ ⟨2, ![n, p]⟩ ⟨2, ![M, p]⟩)
    (hlc : D.lhsContracting = [1]) (hrc : D.rhsContracting = [0])
    (hln : D.lhsNonContracting = [0]) (hrn : D.rhsNonContracting = [1])
    (hlb : D.lhsBatch = []) (hrb : D.rhsBatch = [])
    (ht : (⟨2, ![p, n]⟩ : Shape).Transposes [1, 0] ⟨2, ![n, p]⟩)
    (h1 : (⟨1, ![p]⟩ : Shape).BroadcastsInDim ⟨2, ![1, p]⟩ ![1])
    (h2 : (⟨2, ![1, p]⟩ : Shape).BroadcastsInDim ⟨2, ![M, p]⟩ ![0, 1])
    (x : FVec Ideal ⟨2, ![M, n]⟩ .f32) (W : FVec Ideal ⟨2, ![p, n]⟩ .f32) (b : FVec Ideal ⟨1, ![p]⟩ .f32)
    (m : Fin M) (j : Fin p) :
    addf (Host.dotGeneral D none x (transpose ⟨2, ![n, p]⟩ [1, 0] W ht))
        (broadcastInDim ⟨2, ![M, p]⟩ ![0, 1] h2 (broadcastInDim ⟨2, ![1, p]⟩ ![1] h1 b)) (ix2 m j)
      = affine (tr W) b (fun k => x (ix2 m k)) j := by
  unfold affine
  rw [addf_apply, bias_apply]
  simp only [Host.dotGeneral]
  rw [dot_apply D hlc hrc hln hrn hlb hrb]
  refine congrArg (· + b (ix1 j)) (Finset.sum_congr rfl fun k _ => ?_)
  rw [transpose_ix2_apply, tr_apply]

/-- `max · 0` against the zero constant copied to every entry, read at an entry. -/
theorem reluVec_apply {T : Shape} (h : (⟨0, ![]⟩ : Shape).BroadcastsInDim T ![]) (z : FVec Ideal T .f32) (i : T.Idx) :
    maximumf z (broadcastInDim T ![] h (constant (F := Ideal) ⟨0, ![]⟩ .f32 0x00000000#32)) i = relu (z i) := by
  unfold relu
  rw [maximumf_apply, splat_apply, Ideal.ofBits_zero_f32]

/-- The reference's leaky rectifier over a whole array, read at an entry. -/
theorem leakyVec_apply {T : Shape} (h : (⟨0, ![]⟩ : Shape).BroadcastsInDim T ![]) (z : FVec Ideal T .f32) (i : T.Idx) :
    select (cmpf .oge z (broadcastInDim T ![] h (constant (F := Ideal) ⟨0, ![]⟩ .f32 0x00000000#32))) z
        (mulf (broadcastInDim T ![] h (constant (F := Ideal) ⟨0, ![]⟩ .f32 0x3C23D70A#32)) z) i
      = leaky (z i) := by
  rw [select_apply, cmpf_apply, mulf_apply, splat_apply, splat_apply, Ideal.cmpf_def, Ideal.ofBits_zero_f32]
  exact leaky_eq (z i)

end Stage

/-! ## The reference's six stages, each read at one entry -/

theorem hidden1_apply (x : FVec Ideal S65536x13 .f32) (W1 : FVec Ideal S300x13 .f32) (b1 : FVec Ideal S300 .f32)
    (m : Fin 65536) (j : Fin 300) :
    hidden1 x W1 b1 (ix2 m j) = relu (affine (tr W1) b1 (fun k => x (ix2 m k)) j) := by
  unfold hidden1
  rw [reluVec_apply]
  exact congrArg relu (affine_apply _ rfl rfl rfl rfl rfl rfl _ _ _ x W1 b1 m j)

theorem pre2_apply (h : FVec Ideal S65536x300 .f32) (W2 : FVec Ideal S600x300 .f32) (b2 : FVec Ideal S600 .f32)
    (m : Fin 65536) (j : Fin 600) :
    pre2 h W2 b2 (ix2 m j) = affine (tr W2) b2 (fun k => h (ix2 m k)) j := by
  unfold pre2
  exact affine_apply _ rfl rfl rfl rfl rfl rfl _ _ _ h W2 b2 m j

theorem hidden2_apply (z : FVec Ideal S65536x600 .f32) (i : S65536x600.Idx) : hidden2 z i = leaky (z i) := by
  unfold hidden2
  exact leakyVec_apply _ z i

theorem hidden3_apply (h : FVec Ideal S65536x600 .f32) (W3 : FVec Ideal S100x600 .f32) (b3 : FVec Ideal S100 .f32)
    (m : Fin 65536) (j : Fin 100) :
    hidden3 h W3 b3 (ix2 m j) = relu (affine (tr W3) b3 (fun k => h (ix2 m k)) j) := by
  unfold hidden3
  rw [reluVec_apply]
  exact congrArg relu (affine_apply _ rfl rfl rfl rfl rfl rfl _ _ _ h W3 b3 m j)

theorem pre4_apply (h : FVec Ideal S65536x100 .f32) (W4 : FVec Ideal S13x100 .f32) (b4 : FVec Ideal S13 .f32)
    (m : Fin 65536) (j : Fin 13) :
    pre4 h W4 b4 (ix2 m j) = affine (tr W4) b4 (fun k => h (ix2 m k)) j := by
  unfold pre4
  exact affine_apply _ rfl rfl rfl rfl rfl rfl _ _ _ h W4 b4 m j

theorem hidden4_apply (z : FVec Ideal S65536x13 .f32) (i : S65536x13.Idx) : hidden4 z i = leaky (z i) := by
  unfold hidden4
  exact leakyVec_apply _ z i

end Layers

/-! ## The four layers composed -/

theorem layers_apply (a0 : FVec Ideal S65536x13 .f32) (a2 : FVec Ideal S300x13 .f32) (a3 : FVec Ideal S300 .f32)
    (a4 : FVec Ideal S600x300 .f32) (a5 : FVec Ideal S600 .f32) (a6 : FVec Ideal S100x600 .f32) (a7 : FVec Ideal S100 .f32)
    (a8 : FVec Ideal S13x100 .f32) (a9 : FVec Ideal S13 .f32) (m : Fin 65536) (d : Fin 13) :
    hidden4 (pre4 (hidden3 (hidden2 (pre2 (hidden1 a0 a2 a3) a4 a5)) a6 a7) a8 a9) (ix2 m d)
      = net (tr a2) a3 (tr a4) a5 (tr a6) a7 (tr a8) a9 (fun k => a0 (ix2 m k)) d := by
  unfold net net3
  rw [Layers.hidden4_apply, Layers.pre4_apply]
  simp only [Layers.hidden3_apply, Layers.hidden2_apply, Layers.pre2_apply, Layers.hidden1_apply]

end Cert.ReferenceIdeal.RefValue

end
-- ==== Proof.RefValue.lean ====
/-
  The reference's result, entry by entry: the largest score of the entry's value row over all memory rows, the maximum
  taken from minus infinity.
-/
import proofs.«130421_j65335042507035_1_alg».proof.Proof.RefLayers
import proofs.«130421_j65335042507035_1_alg».proof.Proof.RefScore
import Mathlib.Data.Finset.Fold

noncomputable section

open scoped BigOperators

namespace Cert.ReferenceIdeal.RefValue

open Cert.ReferenceIdeal Cert.ReferenceIdeal.Gen Cert.ReferenceIdeal.RefTerm Idealize.ShloMosaic Idealize.ShloMosaic.ValueIdx Cert.Spec

/-- Reading the stages one after another: the final maximum over the scores, each score the scaled inner product of a
    normalised value row and a normalised memory row out of the four layers. -/
theorem refOut_apply (a0 : FVec Ideal S65536x13 .f32) (a1 : FVec Ideal S2048x13 .f32) (a2 : FVec Ideal S300x13 .f32)
    (a3 : FVec Ideal S300 .f32) (a4 : FVec Ideal S600x300 .f32) (a5 : FVec Ideal S600 .f32)
    (a6 : FVec Ideal S100x600 .f32) (a7 : FVec Ideal S100 .f32) (a8 : FVec Ideal S13x100 .f32) (a9 : FVec Ideal S13 .f32)
    (b : Fin 2048) :
    refOut a0 a1 a2 a3 a4 a5 a6 a7 a8 a9 (ix1 b) = best a0 a1 a2 a3 a4 a5 a6 a7 a8 a9 b := by
  unfold refOut best
  rw [rowMax_apply]
  refine Finset.fold_congr fun mm _ => ?_
  rw [scores_apply]
  have hu : (fun d => unitVals a1 (ix2 b d)) = unit fun d => a1 (ix2 b d) :=
    funext fun d => unitVals_apply a1 b d
  have hw : (fun d => unitRows (hidden4 (pre4 (hidden3 (hidden2 (pre2 (hidden1 a0 a2 a3) a4 a5)) a6 a7) a8 a9)) (ix2 mm d))
      = unit (net (tr a2) a3 (tr a4) a5 (tr a6) a7 (tr a8) a9 fun k => a0 (ix2 mm k)) := by
    funext d
    rw [unitRows_apply]
    exact congrArg (fun x => unit x d) (funext fun k => layers_apply a0 a2 a3 a4 a5 a6 a7 a8 a9 mm k)
  rw [hu, hw]

end Cert.ReferenceIdeal.RefValue

end
-- ==== Proof.lean ====
/-
  The certificate. The kernel computes, for each of 2048 value rows, the largest scaled cosine similarity against 65536
  memory rows passed through a four-layer network, by a running maximum over 64 tiles of memory rows that starts from a
  large negative finite number; the reference takes the maximum over all memory rows at once, from minus infinity. On the
  extended reals both are one function of the arguments (`Spec.best`): every similarity is the inner product of two rows
  whose coordinates lie in [-1, 1], scaled by 23, so none is below the finite starting value, which therefore never
  shows in the result. The kernel's side is read off its run in Proof/KernelBlocks.lean and Proof/KernelFold.lean (over
  the body's arithmetic in Proof/KernelLayers.lean and Proof/KernelScore.lean), the reference's off its operations in
  Proof/RefRun.lean and Proof/RefValue.lean (over Proof/RefLayers.lean and Proof/RefScore.lean), the bound is
  Proof/Bound.lean.
-/
import proofs.«130421_j65335042507035_1_alg».proof.Defs
import proofs.«130421_j65335042507035_1_alg».proof.Proof.Gen.Kernel
import proofs.«130421_j65335042507035_1_alg».proof.Proof.Gen.Kernel.Frame
import proofs.«130421_j65335042507035_1_alg».proof.Proof.Gen.KernelIdeal
import proofs.«130421_j65335042507035_1_alg».proof.Proof.Gen.KernelIdeal.Frame
import proofs.«130421_j65335042507035_1_alg».proof.Proof.Gen.KernelIdeal.Value
import proofs.«130421_j65335042507035_1_alg».proof.Proof.Gen.ReferenceIdeal
import proofs.«130421_j65335042507035_1_alg».proof.Proof.Gen.Pre_finite_inputs
import proofs.«130421_j65335042507035_1_alg».proof.Proof.KernelFold
import proofs.«130421_j65335042507035_1_alg».proof.Proof.RefRun
import proofs.«130421_j65335042507035_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of array operations: it runs and writes none of its arguments. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments both programs end with the same array: entry `b` of either is the largest
    score of value row `b` over all memory rows. -/
theorem algebraic : Cert.algebraic_KernelIdeal_ReferenceIdeal := by
  intro m ρ m' ρ' _ hagree
  refine ⟨fun c => Cert.KernelIdeal.Value.G10 m c, Cert.KernelIdeal.Value.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9⟩ := hagree c
  rw [h0, h1, h2, h3, h4, h5, h6, h7, h8, h9]
  funext i
  obtain ⟨b, rfl⟩ : ∃ b : Fin 2048, i = ix1 b := ⟨i 0, eq_ix1 i⟩
  rw [Cert.ReferenceIdeal.RefValue.refOut_apply]
  exact (Cert.KernelIdeal.KFold.G10_apply m c b).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
